-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S256x512 : Shape := ⟨2, ![256, 512]⟩
abbrev S512 : Shape := ⟨1, ![512]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_

variable [Facts]

def fn_part3 {F : FTy → Type} [FloatOps F] (main_arg12 : FVec F S512 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg8 : FVec F S512x1024 .f32) (main_arg9 : FVec F S1024 .f32) (main_arg10 : FVec F S512x1024 .f32) (main_arg11 : FVec F S1024x512 .f32) (main_arg12 : FVec F S512 .f32) (main_v33 : IVec S_ 1) : IVec S_ 1 :=
  let main_v34 : FVec F S512x1024 .f32 := Host.absf main_arg8
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S512x1024 .f32 := Host.absf main_arg10
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S1024x512 .f32 := Host.absf main_arg11
  let main_cst_18 : FVec F S_ .f32 := constant S_ .f32 0x7F800000#32
  let main_v50 : FVec F S1024x512 .f32 := broadcastInDim S1024x512 ![] bcast_S_S1024x512 main_cst_18
  fn_part3 (F := F) main_arg12 main_v48 main_v49 main_v50

def fn_part1 {F : FTy → Type} [FloatOps F] (main_arg5 : FVec F S512x512 .f32) (main_arg6 : FVec F S512 .f32) (main_arg7 : FVec F S512x512 .f32) (main_arg8 : FVec F S512x1024 .f32) (main_arg9 : FVec F S1024 .f32) (main_arg10 : FVec F S512x1024 .f32) (main_arg11 : FVec F S1024x512 .f32) (main_arg12 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S20000x256 .f32) (main_arg1 : IVec S2x320000 32) (main_arg2 : FVec F S256x512 .f32) (main_arg3 : FVec F S512 .f32) (main_arg4 : FVec F S256x512 .f32) (main_arg5 : FVec F S512x512 .f32) (main_arg6 : FVec F S512 .f32) (main_arg7 : FVec F S512x512 .f32) (main_arg8 : FVec F S512x1024 .f32) (main_arg9 : FVec F S1024 .f32) (main_arg10 : FVec F S512x1024 .f32) (main_arg11 : FVec F S1024x512 .f32) (main_arg12 : FVec F S512 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_arg8 main_arg9 main_arg10 main_arg11 main_arg12 main_v13 main_v16
-- ==== Kernel.lean ====
abbrev S20000x256 : Shape := ⟨2, ![20000, 256]⟩
abbrev S2x320000 : Shape := ⟨2, ![2, 320000]⟩
abbrev S256x512 : Shape := ⟨2, ![256, 512]⟩
abbrev S512 : Shape := ⟨1, ![512]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S20000x512 : Shape := ⟨2, ![20000, 512]⟩
abbrev S1x512 : Shape := ⟨2, ![1, 512]⟩
abbrev S1000x512 : Shape := ⟨2, ![1000, 512]⟩
abbrev S320000x512 : Shape := ⟨2, ![320000, 512]⟩
abbrev S20000x1024 : Shape := ⟨2, ![20000, 1024]⟩
abbrev S1000x1024 : Shape := ⟨2, ![1000, 1024]⟩
abbrev S1024x1024 : Shape := ⟨2, ![1024, 1024]⟩
abbrev S1x1024 : Shape := ⟨2, ![1, 1024]⟩

abbrev nBuf : Space → Nat
  | .hbm => 106
  | .vmem => 24
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x1024, .f32⟩
  | .hbm, ⟨9, _⟩ => ⟨S1024, .f32⟩
  | .hbm, ⟨10, _⟩ => ⟨S512x1024, .f32⟩
  | .hbm, ⟨11, _⟩ => ⟨S1024x512, .f32⟩
  | .hbm, ⟨12, _⟩ => ⟨S512, .f32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x256, .f32⟩
  | .hbm, ⟨26, _⟩ => ⟨S_, .f32⟩
  | .hbm, ⟨27, _⟩ => ⟨S20000x256, .f32⟩
  | .hbm, ⟨28, _⟩ => ⟨S320000x1, .i32⟩
  | .hbm, ⟨29, _⟩ => ⟨S20000x256, .f32⟩
  | .hbm, ⟨30, _⟩ => ⟨S_, .f32⟩
  | .hbm, ⟨31, _⟩ => ⟨S320000, .f32⟩
  | .hbm, ⟨32, _⟩ => ⟨S_, .f32⟩
  | .hbm, ⟨33, _⟩ => ⟨S20000, .f32⟩
  | .hbm, ⟨34, _⟩ => ⟨S320000x1, .i32⟩
  | .hbm, ⟨35, _⟩ => ⟨S20000, .f32⟩
  | .hbm, ⟨36, _⟩ => ⟨S_, .f32⟩
  | .hbm, ⟨37, _⟩ => ⟨S20000, .f32⟩
  | .hbm, ⟨38, _⟩ => ⟨S20000, .f32⟩
  | .hbm, ⟨39, _⟩ => ⟨S20000x1, .f32⟩
  | .hbm, ⟨40, _⟩ => ⟨S20000x256, .f32⟩
  | .hbm, ⟨41, _⟩ => ⟨S20000x256, .f32⟩
  | .hbm, ⟨42, _⟩ => ⟨S20000x512, .f32⟩
  | .hbm, ⟨43, _⟩ => ⟨S512x512, .f32⟩
  | .hbm, ⟨44, _⟩ => ⟨S1x512, .f32⟩
  | .hbm, ⟨45, _⟩ => ⟨S20000x512, .f32⟩
  | .hbm, ⟨46, _⟩ => ⟨S_, .i32⟩
  | .hbm, ⟨47, _⟩ => ⟨S320000, .i32⟩
  | .hbm, ⟨48, _⟩ => ⟨S320000, .i1⟩
  | .hbm, ⟨49, _⟩ => ⟨S_, .i32⟩
  | .hbm, ⟨50, _⟩ => ⟨S320000, .i32⟩
  | .hbm, ⟨51, _⟩ => ⟨S320000, .i32⟩
  | .hbm, ⟨52, _⟩ => ⟨S320000, .i32⟩
  | .hbm, ⟨53, _⟩ => ⟨S320000x1, .i32⟩
  | .hbm, ⟨54, _⟩ => ⟨S320000x512, .f32⟩
  | .hbm, ⟨55, _⟩ => ⟨S_, .f32⟩
  | .hbm, ⟨56, _⟩ => ⟨S20000x512, .f32⟩
  | .hbm, ⟨57, _⟩ => ⟨S320000x1, .i32⟩
  | .hbm, ⟨58, _⟩ => ⟨S20000x512, .f32⟩
  | .hbm, ⟨59, _⟩ => ⟨S_, .f32⟩
  | .hbm, ⟨60, _⟩ => ⟨S320000, .f32⟩
  | .hbm, ⟨61, _⟩ => ⟨S_, .f32⟩
  | .hbm, ⟨62, _⟩ => ⟨S20000, .f32⟩
  | .hbm, ⟨63, _⟩ => ⟨S320000x1, .i32⟩
  | .hbm, ⟨64, _⟩ => ⟨S20000, .f32⟩
  | .hbm, ⟨65, _⟩ => ⟨S_, .f32⟩
  | .hbm, ⟨66, _⟩ => ⟨S20000, .f32⟩
  | .hbm, ⟨67, _⟩ => ⟨S20000, .f32⟩
  | .hbm, ⟨68, _⟩ => ⟨S20000x1, .f32⟩
  | .hbm, ⟨69, _⟩ => ⟨S20000x512, .f32⟩
  | .hbm, ⟨70, _⟩ => ⟨S20000x512, .f32⟩
  | .hbm, ⟨71, _⟩ => ⟨S20000x1024, .f32⟩
  | .hbm, ⟨72, _⟩ => ⟨S1024x512, .f32⟩
  | .hbm, ⟨73, _⟩ => ⟨S1x512, .f32⟩
  | .hbm, ⟨74, _⟩ => ⟨S20000x512, .f32⟩
  | .hbm, ⟨75, _⟩ => ⟨S_, .i32⟩
  | .hbm, ⟨76, _⟩ => ⟨S320000, .i32⟩
  | .hbm, ⟨77, _⟩ => ⟨S320000, .i1⟩
  | .hbm, ⟨78, _⟩ => ⟨S_, .i32⟩
  | .hbm, ⟨79, _⟩ => ⟨S320000, .i32⟩
  | .hbm, ⟨80, _⟩ => ⟨S320000, .i32⟩
  | .hbm, ⟨81, _⟩ => ⟨S320000, .i32⟩
  | .hbm, ⟨82, _⟩ => ⟨S320000x1, .i32⟩
  | .hbm, ⟨83, _⟩ => ⟨S320000x512, .f32⟩
  | .hbm, ⟨84, _⟩ => ⟨S_, .f32⟩
  | .hbm, ⟨85, _⟩ => ⟨S20000x512, .f32⟩
  | .hbm, ⟨86, _⟩ => ⟨S320000x1, .i32⟩
  | .hbm, ⟨87, _⟩ => ⟨S20000x512, .f32⟩
  | .hbm, ⟨88, _⟩ => ⟨S_, .f32⟩
  | .hbm, ⟨89, _⟩ => ⟨S320000, .f32⟩
  | .hbm, ⟨90, _⟩ => ⟨S_, .f32⟩
  | .hbm, ⟨91, _⟩ => ⟨S20000, .f32⟩
  | .hbm, ⟨92, _⟩ => ⟨S320000x1, .i32⟩
  | .hbm, ⟨93, _⟩ => ⟨S20000, .f32⟩
  | .hbm, ⟨94, _⟩ => ⟨S_, .f32⟩
  | .hbm, ⟨95, _⟩ => ⟨S20000, .f32⟩
  | .hbm, ⟨96, _⟩ => ⟨S20000, .f32⟩
  | .hbm, ⟨97, _⟩ => ⟨S20000x1, .f32⟩
  | .hbm, ⟨98, _⟩ => ⟨S20000x512, .f32⟩
  | .hbm, ⟨99, _⟩ => ⟨S20000x512, .f32⟩
  | .hbm, ⟨100, _⟩ => ⟨S20000x1024, .f32⟩
  | .hbm, ⟨101, _⟩ => ⟨S1024x1024, .f32⟩
  | .hbm, ⟨102, _⟩ => ⟨S1x1024, .f32⟩
  | .hbm, ⟨103, _⟩ => ⟨S20000x1024, .f32⟩
  | .hbm, ⟨104, _⟩ => ⟨S1x512, .f32⟩
  | .hbm, ⟨105, _⟩ => ⟨S20000x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x1024, .f32⟩
  | .local _ .vmem, ⟨7, _⟩ => ⟨S1000x1024, .f32⟩
  | .local _ .vmem, ⟨8, _⟩ => ⟨S1024x512, .f32⟩
  | .local _ .vmem, ⟨9, _⟩ => ⟨S1x512, .f32⟩
  | .local _ .vmem, ⟨10, _⟩ => ⟨S1000x512, .f32⟩
  | .local _ .vmem, ⟨11, _⟩ => ⟨S1000x512, .f32⟩
  | .local _ .vmem, ⟨12, _⟩ => ⟨S1000x1024, .f32⟩
  | .local _ .vmem, ⟨13, _⟩ => ⟨S1000x1024, .f32⟩
  | .local _ .vmem, ⟨14, _⟩ => ⟨S1024x1024, .f32⟩
  | .local _ .vmem, ⟨15, _⟩ => ⟨S1x1024, .f32⟩
  | .local _ .vmem, ⟨16, _⟩ => ⟨S1000x1024, .f32⟩
  | .local _ .vmem, ⟨17, _⟩ => ⟨S1000x1024, .f32⟩
  | .local _ .vmem, ⟨18, _⟩ => ⟨S1000x1024, .f32⟩
  | .local _ .vmem, ⟨19, _⟩ => ⟨S1000x1024, .f32⟩
  | .local _ .vmem, ⟨20, _⟩ => ⟨S1024x512, .f32⟩
  | .local _ .vmem, ⟨21, _⟩ => ⟨S1x512, .f32⟩
  | .local _ .vmem, ⟨22, _⟩ => ⟨S1000x512, .f32⟩
  | .local _ .vmem, ⟨23, _⟩ => ⟨S1000x512, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_cst_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_15 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  concatenates_S20000x256_S20000x256_S20000x512_d1 : Shape.Concatenates [S20000x256, S20000x256] S20000x512 1
  concatenates_S256x512_S256x512_S512x512_d0 : Shape.Concatenates [S256x512, S256x512] S512x512 0
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  concatenates_S20000x512_S20000x512_S20000x1024_d1 : Shape.Concatenates [S20000x512, S20000x512] S20000x1024 1
  concatenates_S512x512_S512x512_S1024x512_d0 : Shape.Concatenates [S512x512, S512x512] S1024x512 0
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  concatenates_S512x1024_S512x1024_S1024x1024_d0 : Shape.Concatenates [S512x1024, S512x1024] S1024x1024 0
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S1000x512_S512x512_S1000x512_1_0_0_1_n_n_wf : DotDims.WF S1000x512 S512x512 S1000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S1000x1024_S1024x512_S1000x512_1_0_0_1_n_n_wf : DotDims.WF S1000x1024 S1024x512 S1000x512 [1] [0] [0] [1] [] []
  dot_S1000x1024_S1024x1024_S1000x1024_1_0_0_1_n_n_wf : DotDims.WF S1000x1024 S1024x1024 S1000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S20000x512.size a
  hwx0_3 : ∀ i : grid0.Coords, EltTy.bits .f32 = 32 ∨ (Rect.block (s := S20000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S20000x1024.size a
  hwx1_0 : ∀ i : grid1.Coords, EltTy.bits .f32 = 32 ∨ (Rect.block (s := S20000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S20000x512.size a
  hwx1_3 : ∀ i : grid1.Coords, EltTy.bits .f32 = 32 ∨ (Rect.block (s := S20000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x1024.size a ≤ S20000x1024.size a
  hwx2_0 : ∀ i : grid2.Coords, EltTy.bits .f32 = 32 ∨ (Rect.block (s := S20000x1024) S1000x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1024.size a ≤ S20000x1024.size a
  hwx2_3 : ∀ i : grid2.Coords, EltTy.bits .f32 = 32 ∨ (Rect.block (s := S20000x1024) S1000x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1024.size a ≤ S20000x1024.size a
  hwx3_0 : ∀ i : grid3.Coords, EltTy.bits .f32 = 32 ∨ (Rect.block (s := S20000x1024) S1000x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x512.size a
  hwx3_1 : ∀ i : grid3.Coords, EltTy.bits .f32 = 32 ∨ (Rect.block (s := S1024x512) S1024x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x512.size a ≤ S20000x512.size a
  hwx3_3 : ∀ i : grid3.Coords, EltTy.bits .f32 = 32 ∨ (Rect.block (s := S20000x512) S1000x512.size (cc3_transform_3 i) (hinb3_3 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf

abbrev win0_0 : Pipeline.Window sig grid0 :=
  Pipeline.Window.ofSpec (Memref.whole main_v23) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v69) S1000x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S1000x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S1000x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S1024x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S256x512 : Shape := ⟨2, ![256, 512]⟩
abbrev S512 : Shape := ⟨1, ![512]⟩
abbrev S512x512 : Shape := ⟨2, ![512, 512]⟩
abbrev S512x1024 : Shape := ⟨2, ![512, 1024]⟩
abbrev S1024 : Shape := ⟨1, ![1024]⟩
abbrev S1024x512 : Shape := ⟨2, ![1024, 512]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S20000x512 : Shape := ⟨2, ![20000, 512]⟩
abbrev S1x512 : Shape := ⟨2, ![1, 512]⟩
abbrev S320000x512 : Shape := ⟨2, ![320000, 512]⟩
abbrev S20000x1024 : Shape := ⟨2, ![20000, 1024]⟩
abbrev S1x1024 : Shape := ⟨2, ![1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S256x512, .f32⟩
  | .hbm, ⟨3, _⟩ => ⟨S512, .f32⟩
  | .hbm, ⟨4, _⟩ => ⟨S256x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512x1024, .f32⟩
  | .hbm, ⟨9, _⟩ => ⟨S1024, .f32⟩
  | .hbm, ⟨10, _⟩ => ⟨S512x1024, .f32⟩
  | .hbm, ⟨11, _⟩ => ⟨S1024x512, .f32⟩
  | .hbm, ⟨12, _⟩ => ⟨S512, .f32⟩
  | .hbm, ⟨13, _⟩ => ⟨S1x320000, .i32⟩
  | .hbm, ⟨14, _⟩ => ⟨S320000, .i32⟩
  | .hbm, ⟨15, _⟩ => ⟨S1x320000, .i32⟩
  | .hbm, ⟨16, _⟩ => ⟨S320000, .i32⟩
  | .hbm, ⟨17, _⟩ => ⟨S_, .i32⟩
  | .hbm, ⟨18, _⟩ => ⟨S320000, .i32⟩
  | .hbm, ⟨19, _⟩ => ⟨S320000, .i1⟩
  | .hbm, ⟨20, _⟩ => ⟨S_, .i32⟩
  | .hbm, ⟨21, _⟩ => ⟨S320000, .i32⟩
  | .hbm, ⟨22, _⟩ => ⟨S320000, .i32⟩
  | .hbm, ⟨23, _⟩ => ⟨S320000, .i32⟩
  | .hbm, ⟨24, _⟩ => ⟨S320000x1, .i32⟩
  | .hbm, ⟨25, _⟩ => ⟨S320000x256, .f32⟩
  | .hbm, ⟨26, _⟩ => ⟨S_, .f32⟩
  | .hbm, ⟨27, _⟩ => ⟨S20000x256, .f32⟩
  | .hbm, ⟨28, _⟩ => ⟨S320000x1, .i32⟩
  | .hbm, ⟨29, _⟩ => ⟨S20000x256, .f32⟩
  | .hbm, ⟨30, _⟩ => ⟨S_, .f32⟩
  | .hbm, ⟨31, _⟩ => ⟨S320000, .f32⟩
  | .hbm, ⟨32, _⟩ => ⟨S_, .f32⟩
  | .hbm, ⟨33, _⟩ => ⟨S20000, .f32⟩
  | .hbm, ⟨34, _⟩ => ⟨S320000x1, .i32⟩
  | .hbm, ⟨35, _⟩ => ⟨S20000, .f32⟩
  | .hbm, ⟨36, _⟩ => ⟨S_, .f32⟩
  | .hbm, ⟨37, _⟩ => ⟨S20000, .f32⟩
  | .hbm, ⟨38, _⟩ => ⟨S20000, .f32⟩
  | .hbm, ⟨39, _⟩ => ⟨S20000x1, .f32⟩
  | .hbm, ⟨40, _⟩ => ⟨S20000x256, .f32⟩
  | .hbm, ⟨41, _⟩ => ⟨S20000x256, .f32⟩
  | .hbm, ⟨42, _⟩ => ⟨S20000x512, .f32⟩
  | .hbm, ⟨43, _⟩ => ⟨S1x512, .f32⟩
  | .hbm, ⟨44, _⟩ => ⟨S20000x512, .f32⟩
  | .hbm, ⟨45, _⟩ => ⟨S20000x512, .f32⟩
  | .hbm, ⟨46, _⟩ => ⟨S20000x512, .f32⟩
  | .hbm, ⟨47, _⟩ => ⟨S20000x512, .f32⟩
  | .hbm, ⟨48, _⟩ => ⟨S_, .f32⟩
  | .hbm, ⟨49, _⟩ => ⟨S20000x512, .f32⟩
  | .hbm, ⟨50, _⟩ => ⟨S20000x512, .f32⟩
  | .hbm, ⟨51, _⟩ => ⟨S_, .i32⟩
  | .hbm, ⟨52, _⟩ => ⟨S320000, .i32⟩
  | .hbm, ⟨53, _⟩ => ⟨S320000, .i1⟩
  | .hbm, ⟨54, _⟩ => ⟨S_, .i32⟩
  | .hbm, ⟨55, _⟩ => ⟨S320000, .i32⟩
  | .hbm, ⟨56, _⟩ => ⟨S320000, .i32⟩
  | .hbm, ⟨57, _⟩ => ⟨S320000, .i32⟩
  | .hbm, ⟨58, _⟩ => ⟨S320000x1, .i32⟩
  | .hbm, ⟨59, _⟩ => ⟨S320000x512, .f32⟩
  | .hbm, ⟨60, _⟩ => ⟨S_, .f32⟩
  | .hbm, ⟨61, _⟩ => ⟨S20000x512, .f32⟩
  | .hbm, ⟨62, _⟩ => ⟨S320000x1, .i32⟩
  | .hbm, ⟨63, _⟩ => ⟨S20000x512, .f32⟩
  | .hbm, ⟨64, _⟩ => ⟨S_, .f32⟩
  | .hbm, ⟨65, _⟩ => ⟨S320000, .f32⟩
  | .hbm, ⟨66, _⟩ => ⟨S_, .f32⟩
  | .hbm, ⟨67, _⟩ => ⟨S20000, .f32⟩
  | .hbm, ⟨68, _⟩ => ⟨S320000x1, .i32⟩
  | .hbm, ⟨69, _⟩ => ⟨S20000, .f32⟩
  | .hbm, ⟨70, _⟩ => ⟨S_, .f32⟩
  | .hbm, ⟨71, _⟩ => ⟨S20000, .f32⟩
  | .hbm, ⟨72, _⟩ => ⟨S20000, .f32⟩
  | .hbm, ⟨73, _⟩ => ⟨S20000x1, .f32⟩
  | .hbm, ⟨74, _⟩ => ⟨S20000x512, .f32⟩
  | .hbm, ⟨75, _⟩ => ⟨S20000x512, .f32⟩
  | .hbm, ⟨76, _⟩ => ⟨S20000x512, .f32⟩
  | .hbm, ⟨77, _⟩ => ⟨S1x512, .f32⟩
  | .hbm, ⟨78, _⟩ => ⟨S20000x512, .f32⟩
  | .hbm, ⟨79, _⟩ => ⟨S20000x512, .f32⟩
  | .hbm, ⟨80, _⟩ => ⟨S20000x512, .f32⟩
  | .hbm, ⟨81, _⟩ => ⟨S20000x512, .f32⟩
  | .hbm, ⟨82, _⟩ => ⟨S_, .f32⟩
  | .hbm, ⟨83, _⟩ => ⟨S20000x512, .f32⟩
  | .hbm, ⟨84, _⟩ => ⟨S20000x512, .f32⟩
  | .hbm, ⟨85, _⟩ => ⟨S_, .i32⟩
  | .hbm, ⟨86, _⟩ => ⟨S320000, .i32⟩
  | .hbm, ⟨87, _⟩ => ⟨S320000, .i1⟩
  | .hbm, ⟨88, _⟩ => ⟨S_, .i32⟩
  | .hbm, ⟨89, _⟩ => ⟨S320000, .i32⟩
  | .hbm, ⟨90, _⟩ => ⟨S320000, .i32⟩
  | .hbm, ⟨91, _⟩ => ⟨S320000, .i32⟩
  | .hbm, ⟨92, _⟩ => ⟨S320000x1, .i32⟩
  | .hbm, ⟨93, _⟩ => ⟨S320000x512, .f32⟩
  | .hbm, ⟨94, _⟩ => ⟨S_, .f32⟩
  | .hbm, ⟨95, _⟩ => ⟨S20000x512, .f32⟩
  | .hbm, ⟨96, _⟩ => ⟨S320000x1, .i32⟩
  | .hbm, ⟨97, _⟩ => ⟨S20000x512, .f32⟩
  | .hbm, ⟨98, _⟩ => ⟨S_, .f32⟩
  | .hbm, ⟨99, _⟩ => ⟨S320000, .f32⟩
  | .hbm, ⟨100, _⟩ => ⟨S_, .f32⟩
  | .hbm, ⟨101, _⟩ => ⟨S20000, .f32⟩
  | .hbm, ⟨102, _⟩ => ⟨S320000x1, .i32⟩
  | .hbm, ⟨103, _⟩ => ⟨S20000, .f32⟩
  | .hbm, ⟨104, _⟩ => ⟨S_, .f32⟩
  | .hbm, ⟨105, _⟩ => ⟨S20000, .f32⟩
  | .hbm, ⟨106, _⟩ => ⟨S20000, .f32⟩
  | .hbm, ⟨107, _⟩ => ⟨S20000x1, .f32⟩
  | .hbm, ⟨108, _⟩ => ⟨S20000x512, .f32⟩
  | .hbm, ⟨109, _⟩ => ⟨S20000x512, .f32⟩
  | .hbm, ⟨110, _⟩ => ⟨S20000x1024, .f32⟩
  | .hbm, ⟨111, _⟩ => ⟨S1x1024, .f32⟩
  | .hbm, ⟨112, _⟩ => ⟨S20000x1024, .f32⟩
  | .hbm, ⟨113, _⟩ => ⟨S20000x1024, .f32⟩
  | .hbm, ⟨114, _⟩ => ⟨S20000x1024, .f32⟩
  | .hbm, ⟨115, _⟩ => ⟨S20000x1024, .f32⟩
  | .hbm, ⟨116, _⟩ => ⟨S_, .f32⟩
  | .hbm, ⟨117, _⟩ => ⟨S20000x1024, .f32⟩
  | .hbm, ⟨118, _⟩ => ⟨S20000x1024, .f32⟩
  | .hbm, ⟨119, _⟩ => ⟨S20000x512, .f32⟩
  | .hbm, ⟨120, _⟩ => ⟨S1x512, .f32⟩
  | .hbm, ⟨121, _⟩ => ⟨S20000x512, .f32⟩
  | .hbm, ⟨122, _⟩ => ⟨S20000x512, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_c_10 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_13 : Ref sig .tc := ⟨.hbm, 98, rfl⟩
abbrev main_v66 : Ref sig .tc := ⟨.hbm, 99, rfl⟩
abbrev main_cst_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call2_cst : Ref sig .tc := ⟨.hbm, 116, rfl⟩
abbrev main_call2_v0 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S20000x1_S20000x512_0_1 : S20000x1.BroadcastsInDim S20000x512 (![0, 1] : Fin 2 → Fin S20000x512.rank)
  bcast_S1024_S1x1024_1 : S1024.BroadcastsInDim S1x1024 (![1] : Fin 1 → Fin S1x1024.rank)
  bcast_S1x1024_S20000x1024_0_1 : S1x1024.BroadcastsInDim S20000x1024 (![0, 1] : Fin 2 → Fin S20000x1024.rank)
  bcast_S_S20000x1024 : S_.BroadcastsInDim S20000x1024 (![] : Fin 0 → Fin S20000x1024.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x512_S20000x512_1_0_0_1_n_n_wf : DotDims.WF S20000x256 S256x512 S20000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x512_S20000x512_1_0_0_1_n_n_wf : DotDims.WF S20000x512 S512x512 S20000x512 [1] [0] [0] [1] [] []
  dot_S20000x512_S512x1024_S20000x1024_1_0_0_1_n_n_wf : DotDims.WF S20000x512 S512x1024 S20000x1024 [1] [0] [0] [1] [] []
  dot_S20000x1024_S1024x512_S20000x512_1_0_0_1_n_n_wf : DotDims.WF S20000x1024 S1024x512 S20000x512 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x512_S20000x512_1_0_0_1_n_n : DotDims S20000x256 S256x512 S20000x512 where
  lhsContracting := [1]
  rhsContracting := [0]
  lhsNonContracting := [0]
  rhsNonContracting := [1]
  lhsBatch := []
  rhsBatch := []
  wf := dot_S20000x256_S256x512_S20000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x512_S512x1024_S20000x1024_1_0_0_1_n_n : DotDims S20000x512 S512x1024 S20000x1024 where
  lhsContracting := [1]
  rhsContracting := [0]
  lhsNonContracting := [0]
  rhsNonContracting := [1]
  lhsBatch := []
  rhsBatch := []
  wf := dot_S20000x512_S512x1024_S20000x1024_1_0_0_1_n_n_wf
def dot_S20000x1024_S1024x512_S20000x512_1_0_0_1_n_n : DotDims S20000x1024 S1024x512 S20000x512 where
  lhsContracting := [1]
  rhsContracting := [0]
  lhsNonContracting := [0]
  rhsNonContracting := [1]
  lhsBatch := []
  rhsBatch := []
  wf := dot_S20000x1024_S1024x512_S20000x512_1_0_0_1_n_n_wf

class Facts : Prop extends Facts₀ where

variable [Facts]
-- ==== Proof.DenseSpec.lean ====
/-
  A dense layer as one function of whole arrays, entry by entry.

  For a row-block matrix `A` (n × K), weights `W` (K × N) and a bias row `b` (1 × N), entry (p, q) of the layer's
  result is `Σ_k A[p, k] · W[k, q] + b[0, q]`; the rectified layer takes the maximum of that with zero.  Every
  tile of rows of the result depends only on the same rows of `A`, which is why a kernel that walks the rows in
  blocks of 1000 computes, block by block, the restriction of this one function.

  Also here: a product of an m × k by a k × n matrix accumulated into a zero matrix, read at an entry, is the sum
  over the contracted coordinate of the products of the entries (the same sum the host's plain product is).
-/
import Idealize.ShloMosaic.Lib.StackMember
import Idealize.ShloMosaic.Lib.ValueIdx
import Idealize.ShloMosaic.PureOps.Ideal.Laws

noncomputable section

open scoped BigOperators
open Idealize.ShloMosaic Idealize.ShloMosaic.ValueIdx

namespace SageLayer

/-- Entry (p, q) of `A · W + b`, the bias row broadcast down the rows. -/
def dense (n K N : Nat) (A : FVec Ideal ⟨2, ![n, K]⟩ .f32) (W : FVec Ideal ⟨2, ![K, N]⟩ .f32)
    (b : FVec Ideal ⟨2, ![1, N]⟩ .f32) : FVec Ideal ⟨2, ![n, N]⟩ .f32 :=
  fun j => (∑ k : Fin K, A (ix2 (n0 := n) (j 0) k) * W (ix2 (n1 := N) k (j 1))) + b (ix2 (0 : Fin 1) (j 1 : Fin N))

/-- The rectified layer: the maximum of `A · W + b` with the zero of the format. -/
def denseRelu (n K N : Nat) (A : FVec Ideal ⟨2, ![n, K]⟩ .f32) (W : FVec Ideal ⟨2, ![K, N]⟩ .f32)
    (b : FVec Ideal ⟨2, ![1, N]⟩ .f32) : FVec Ideal ⟨2, ![n, N]⟩ .f32 :=
  fun j => max (dense n K N A W b j) (Ideal.ofBits .f32 0x00000000#32)

/-- The layer at an index whose coordinates are known to be (r, q). -/
theorem dense_apply_of (n K N : Nat) (A : FVec Ideal ⟨2, ![n, K]⟩ .f32) (W : FVec Ideal ⟨2, ![K, N]⟩ .f32)
    (b : FVec Ideal ⟨2, ![1, N]⟩ .f32) (i : (⟨2, ![n, N]⟩ : Shape).Idx) (r : Fin n) (q : Fin N)
    (h0 : (i 0).val = r.val) (h1 : (i 1).val = q.val) :
    dense n K N A W b i = (∑ k : Fin K, A (ix2 r k) * W (ix2 k q)) + b (ix2 (0 : Fin 1) q) := by
  obtain rfl : i = ix2 r q := funext fun a => Fin.ext (by match a with | ⟨0, _⟩ => exact h0 | ⟨1, _⟩ => exact h1)
  rfl

/-- The rectified layer at an index whose coordinates are known to be (r, q). -/
theorem denseRelu_apply_of (n K N : Nat) (A : FVec Ideal ⟨2, ![n, K]⟩ .f32) (W : FVec Ideal ⟨2, ![K, N]⟩ .f32)
    (b : FVec Ideal ⟨2, ![1, N]⟩ .f32) (i : (⟨2, ![n, N]⟩ : Shape).Idx) (r : Fin n) (q : Fin N)
    (h0 : (i 0).val = r.val) (h1 : (i 1).val = q.val) :
    denseRelu n K N A W b i
      = max ((∑ k : Fin K, A (ix2 r k) * W (ix2 k q)) + b (ix2 (0 : Fin 1) q)) (Ideal.ofBits .f32 0x00000000#32) := by
  unfold denseRelu
  rw [dense_apply_of n K N A W b i r q h0 h1]

/-- A plain matrix product accumulated into the zero matrix, at entry (a, b): the sum over the contracted
    coordinate.  Both this and the host's plain product are that sum, so the library's reading of the host's
    product serves. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end SageLayer

end
-- ==== Proof.Region0.lean ====
/-
  The first dense layer's kernel region, as one function of the arrays it is entered with.

  The region walks the 20000 rows of its left operand in 20 blocks of 1000.  At block `t` the body multiplies rows
  `1000 t … 1000 t + 999` of the left operand by the whole weight matrix, adds the bias row, takes the maximum with
  zero, and writes the result back to the same rows of the output.  Entry (p, q) of the block written at point `t` is
  therefore entry (1000 t + p, q) of `denseRelu` of the whole arrays; the 20 blocks tile the output, so after the
  region the output array IS `denseRelu` of the three arrays the region was entered with, whatever those were.
-/
import proofs.«153768_j44839458570700_1_alg».proof.Proof.Gen.KernelIdeal.Frame
import proofs.«153768_j44839458570700_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's contraction is the plain product of a 1000 × 512 by a 512 × 512 matrix. -/
theorem dims_eq : dot_S1000x512_S512x512_S1000x512_1_0_0_1_n_n = DotDims.plain 1000 512 512 := rfl

/-- What the body stores, at entry (p, q) of the block: the row's contraction with the weights' column, plus the
    bias at q, rectified.  (Narrowing to bf16 is the identity on the extended reals.) -/
theorem pay_apply (x0 : Vec Ideal S1000x512 .f32) (x1 : Vec Ideal S512x512 .f32) (x2 : Vec Ideal S1x512 .f32)
    (p : Fin 1000) (q : Fin 512) :
    k0_pay1 (F := Ideal) x0 x1 x2 (ix2 p q)
      = max ((∑ k : Fin 512, x0 (ix2 p k) * x1 (ix2 k q)) + x2 (ix2 0 q)) (Ideal.ofBits .f32 0x00000000#32) := by
  unfold k0_pay1
  simp only [shapeCast_self, maximumf_apply, addf_apply, broadcast_apply]
  rw [dims_eq, SageLayer.matmul_plain_zero_apply, broadcastTo_1b_ab_apply]
  rfl

/-- Where each window's block sits at point `t`: the left operand's and the output's at block row `t`, the weights'
    and the bias's at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left operand's block at point `t` is rows `1000 t …` of the array. -/
theorem blkA_apply (c : Dev nD) (t : Fin cfg0.N) (x : S1000x512.Idx) (i : S20000x512.Idx)
    (h0 : (i 0).val = 1000 * t.val + (x 0).val) (h1 : (i 1).val = (x 1).val) :
    (iblk0 V c 0 t : Vec Ideal S1000x512 .f32) x = (V c main_v23 : S20000x512.Idx → EReal) i := by
  obtain ⟨e0, e1, -⟩ := idx_facts t
  unfold iblk0
  rw [View.read_apply]
  show V c main_v23 _ = V c main_v23 _
  congr 1
  funext a
  apply Fin.ext
  match a with
  | ⟨0, _⟩ => show win0_0.index t 0 * 1000 + 1 * (x 0).val = (i 0).val; rw [e0, h0]; omega
  | ⟨1, _⟩ => show win0_0.index t 1 * 512 + 1 * (x 1).val = (i 1).val; rw [e1, h1]; omega

/-- The weights' block at every point is the whole weight array. -/
theorem blkW_apply (c : Dev nD) (t : Fin cfg0.N) (x : S512x512.Idx) :
    (iblk0 V c 1 t : Vec Ideal S512x512 .f32) x = (V c main_v24 : S512x512.Idx → EReal) x := by
  obtain ⟨-, -, e0, e1, -⟩ := idx_facts t
  unfold iblk0
  rw [View.read_apply]
  show V c main_v24 _ = V c main_v24 _
  congr 1
  funext a
  apply Fin.ext
  match a with
  | ⟨0, _⟩ => show win0_1.index t 0 * 512 + 1 * (x 0).val = (x 0).val; rw [e0]; omega
  | ⟨1, _⟩ => show win0_1.index t 1 * 512 + 1 * (x 1).val = (x 1).val; rw [e1]; omega

/-- The bias's block at every point is the whole bias row. -/
theorem blkB_apply (c : Dev nD) (t : Fin cfg0.N) (x : S1x512.Idx) :
    (iblk0 V c 2 t : Vec Ideal S1x512 .f32) x = (V c main_v25 : S1x512.Idx → EReal) x := by
  obtain ⟨-, -, -, -, e0, e1, -⟩ := idx_facts t
  unfold iblk0
  rw [View.read_apply]
  show V c main_v25 _ = V c main_v25 _
  congr 1
  funext a
  apply Fin.ext
  match a with
  | ⟨0, _⟩ => show win0_2.index t 0 * 1 + 1 * (x 0).val = (x 0).val; rw [e0]; omega
  | ⟨1, _⟩ => show win0_2.index t 1 * 512 + 1 * (x 1).val = (x 1).val; rw [e1]; omega

/-- WHAT POINT `t` WRITES BACK is block `t` of the rectified layer of the arrays the region was entered with: entry
    (p, q) of the block is entry (1000 t + p, q) of the layer, whose row is the block's row p and whose weights and bias
    are the whole arrays. -/
theorem flushed_eq (c : Dev nD) (t : Fin cfg0.N) :
    (dat0 V c).flushed 3 t = ((cfg0.win 3).blk t).view.read (Elt Ideal)
      (SageLayer.denseRelu 20000 512 512 (V c main_v23) (V c main_v24) (V c main_v25)) := by
  show (cfg0.win 3).cut (grid0.coords t) ((dat0 V c).after 3 t) = _
  rw [after0_3]
  unfold out0_3
  rw [View.canon_unit_zero hz]
  simp only [View.ld_unit_zero (S := S1000x512) hz, View.ld_unit_zero (S := S512x512) hz, View.ld_unit_zero (S := S1x512) hz]
  funext j
  revert j
  show ∀ j : S1000x512.Idx, k0_pay1 (F := Ideal) (iblk0 V c 0 t) (iblk0 V c 1 t) (iblk0 V c 2 t) j
      = SageLayer.denseRelu 20000 512 512 (V c main_v23) (V c main_v24) (V c main_v25) (((cfg0.win 3).blk t).view.emb j)
  intro j
  obtain ⟨p, q, rfl⟩ : ∃ (p : Fin 1000) (q : Fin 512), j = ix2 p q := ⟨j 0, j 1, eq_ix2 j⟩
  refine (pay_apply (iblk0 V c 0 t) (iblk0 V c 1 t) (iblk0 V c 2 t) p q).trans ?_
  obtain ⟨-, -, -, -, -, -, e0, e1⟩ := idx_facts t
  have ht : t.val < 20 := lt_of_lt_of_eq t.isLt N_0
  have hr : 1000 * t.val + p.val < 20000 := by have := p.isLt; omega
  refine Eq.trans ?_ (SageLayer.denseRelu_apply_of 20000 512 512 (V c main_v23) (V c main_v24) (V c main_v25) _
    (⟨1000 * t.val + p.val, hr⟩ : Fin 20000) q
    (by show win0_3.index t 0 * 1000 + 1 * p.val = 1000 * t.val + p.val; rw [e0]; omega)
    (by show win0_3.index t 1 * 512 + 1 * q.val = q.val; rw [e1]; omega)).symm
  refine congrArg (max · _) (congrArg₂ (· + ·) (Finset.sum_congr rfl fun k _ => congrArg₂ (· * ·) ?_ ?_) ?_)
  · exact blkA_apply V c t (ix2 p k) (ix2 (⟨1000 * t.val + p.val, hr⟩ : Fin 20000) k) rfl rfl
  · exact blkW_apply V c t (ix2 k q)
  · exact blkB_apply V c t (ix2 0 q)

/-- An index of the output array is in point `t`'s block iff each coordinate is in the block's range on its axis. -/
theorem mem_blk (t : Fin cfg0.N) (i : S20000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v26).slice (win0_3.rect t)).set ↔ _
  rw [View.set_slice_whole, Rect.mem_set_unit]
  exact Iff.rfl

/-- The 20 row blocks tile the output: row r lies in the block of point r / 1000. -/
theorem cover (i : S20000x512.Idx) :
    ∃ t : Fin cfg0.N, (cfg0.win 3).flush t = true ∧ i ∈ ((cfg0.win 3).blk t).view.set := by
  have hi0 : (i 0).val < 20000 := (i 0).isLt
  have hi1 : (i 1).val < 512 := (i 1).isLt
  have hN : cfg0.N = 20 := N_0
  have hlt : (i 0).val / 1000 < cfg0.N := by rw [hN]; omega
  obtain ⟨-, -, -, -, -, -, e0, e1⟩ := idx_facts ⟨(i 0).val / 1000, hlt⟩
  refine ⟨⟨(i 0).val / 1000, hlt⟩, flush0_3 _, ?_⟩
  rw [mem_blk]
  intro a
  match a with
  | ⟨0, _⟩ =>
    show win0_3.index ⟨(i 0).val / 1000, hlt⟩ 0 * 1000 ≤ (i 0).val ∧ (i 0).val < win0_3.index ⟨(i 0).val / 1000, hlt⟩ 0 * 1000 + 1000
    rw [e0]; show (i 0).val / 1000 * 1000 ≤ (i 0).val ∧ (i 0).val < (i 0).val / 1000 * 1000 + 1000; omega
  | ⟨1, _⟩ =>
    show win0_3.index ⟨(i 0).val / 1000, hlt⟩ 1 * 512 ≤ (i 1).val ∧ (i 1).val < win0_3.index ⟨(i 0).val / 1000, hlt⟩ 1 * 512 + 512
    rw [e1]; omega

/-- THE OUTPUT ARRAY after the region: the rectified layer of the arrays the region was entered with. -/
theorem value (c : Dev nD) : (dat0 V c).arrAt 3 cfg0.N
    = SageLayer.denseRelu 20000 512 512 (V c main_v23) (V c main_v24) (V c main_v25) :=
  (dat0 V c).arrAt_eq_of_cover 3 _ (fun t _ => flushed_eq V c t) cover

end Cert.KernelIdeal.Region0

end
-- ==== Proof.Region1.lean ====
/-
  The second dense layer's kernel region, as one function of the arrays it is entered with.

  The region walks the 20000 rows of its left operand in 20 blocks of 1000.  At block `t` the body multiplies rows
  `1000 t … 1000 t + 999` of the left operand by the whole weight matrix, adds the bias row, takes the maximum with
  zero, and writes the result back to the same rows of the output.  Entry (p, q) of the block written at point `t` is
  therefore entry (1000 t + p, q) of `denseRelu` of the whole arrays; the 20 blocks tile the output, so after the
  region the output array IS `denseRelu` of the three arrays the region was entered with, whatever those were.
-/
import proofs.«153768_j44839458570700_1_alg».proof.Proof.Gen.KernelIdeal.Frame
import proofs.«153768_j44839458570700_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's contraction is the plain product of a 1000 × 1024 by a 1024 × 512 matrix. -/
theorem dims_eq : dot_S1000x1024_S1024x512_S1000x512_1_0_0_1_n_n = DotDims.plain 1000 1024 512 := rfl

/-- What the body stores, at entry (p, q) of the block: the row's contraction with the weights' column, plus the
    bias at q, rectified.  (Narrowing to bf16 is the identity on the extended reals.) -/
theorem pay_apply (x0 : Vec Ideal S1000x1024 .f32) (x1 : Vec Ideal S1024x512 .f32) (x2 : Vec Ideal S1x512 .f32)
    (p : Fin 1000) (q : Fin 512) :
    k1_pay1 (F := Ideal) x0 x1 x2 (ix2 p q)
      = max ((∑ k : Fin 1024, x0 (ix2 p k) * x1 (ix2 k q)) + x2 (ix2 0 q)) (Ideal.ofBits .f32 0x00000000#32) := by
  unfold k1_pay1
  simp only [shapeCast_self, maximumf_apply, addf_apply, broadcast_apply]
  rw [dims_eq, SageLayer.matmul_plain_zero_apply, broadcastTo_1b_ab_apply]
  rfl

/-- Where each window's block sits at point `t`: the left operand's and the output's at block row `t`, the weights'
    and the bias's at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The left operand's block at point `t` is rows `1000 t …` of the array. -/
theorem blkA_apply (c : Dev nD) (t : Fin cfg1.N) (x : S1000x1024.Idx) (i : S20000x1024.Idx)
    (h0 : (i 0).val = 1000 * t.val + (x 0).val) (h1 : (i 1).val = (x 1).val) :
    (iblk1 V c 0 t : Vec Ideal S1000x1024 .f32) x = (V c main_v46 : S20000x1024.Idx → EReal) i := by
  obtain ⟨e0, e1, -⟩ := idx_facts t
  unfold iblk1
  rw [View.read_apply]
  show V c main_v46 _ = V c main_v46 _
  congr 1
  funext a
  apply Fin.ext
  match a with
  | ⟨0, _⟩ => show win1_0.index t 0 * 1000 + 1 * (x 0).val = (i 0).val; rw [e0, h0]; omega
  | ⟨1, _⟩ => show win1_0.index t 1 * 1024 + 1 * (x 1).val = (i 1).val; rw [e1, h1]; omega

/-- The weights' block at every point is the whole weight array. -/
theorem blkW_apply (c : Dev nD) (t : Fin cfg1.N) (x : S1024x512.Idx) :
    (iblk1 V c 1 t : Vec Ideal S1024x512 .f32) x = (V c main_v47 : S1024x512.Idx → EReal) x := by
  obtain ⟨-, -, e0, e1, -⟩ := idx_facts t
  unfold iblk1
  rw [View.read_apply]
  show V c main_v47 _ = V c main_v47 _
  congr 1
  funext a
  apply Fin.ext
  match a with
  | ⟨0, _⟩ => show win1_1.index t 0 * 1024 + 1 * (x 0).val = (x 0).val; rw [e0]; omega
  | ⟨1, _⟩ => show win1_1.index t 1 * 512 + 1 * (x 1).val = (x 1).val; rw [e1]; omega

/-- The bias's block at every point is the whole bias row. -/
theorem blkB_apply (c : Dev nD) (t : Fin cfg1.N) (x : S1x512.Idx) :
    (iblk1 V c 2 t : Vec Ideal S1x512 .f32) x = (V c main_v48 : S1x512.Idx → EReal) x := by
  obtain ⟨-, -, -, -, e0, e1, -⟩ := idx_facts t
  unfold iblk1
  rw [View.read_apply]
  show V c main_v48 _ = V c main_v48 _
  congr 1
  funext a
  apply Fin.ext
  match a with
  | ⟨0, _⟩ => show win1_2.index t 0 * 1 + 1 * (x 0).val = (x 0).val; rw [e0]; omega
  | ⟨1, _⟩ => show win1_2.index t 1 * 512 + 1 * (x 1).val = (x 1).val; rw [e1]; omega

/-- WHAT POINT `t` WRITES BACK is block `t` of the rectified layer of the arrays the region was entered with: entry
    (p, q) of the block is entry (1000 t + p, q) of the layer, whose row is the block's row p and whose weights and bias
    are the whole arrays. -/
theorem flushed_eq (c : Dev nD) (t : Fin cfg1.N) :
    (dat1 V c).flushed 3 t = ((cfg1.win 3).blk t).view.read (Elt Ideal)
      (SageLayer.denseRelu 20000 1024 512 (V c main_v46) (V c main_v47) (V c main_v48)) := by
  show (cfg1.win 3).cut (grid1.coords t) ((dat1 V c).after 3 t) = _
  rw [after1_3]
  unfold out1_3
  rw [View.canon_unit_zero hz]
  simp only [View.ld_unit_zero (S := S1000x1024) hz, View.ld_unit_zero (S := S1024x512) hz, View.ld_unit_zero (S := S1x512) hz]
  funext j
  revert j
  show ∀ j : S1000x512.Idx, k1_pay1 (F := Ideal) (iblk1 V c 0 t) (iblk1 V c 1 t) (iblk1 V c 2 t) j
      = SageLayer.denseRelu 20000 1024 512 (V c main_v46) (V c main_v47) (V c main_v48) (((cfg1.win 3).blk t).view.emb j)
  intro j
  obtain ⟨p, q, rfl⟩ : ∃ (p : Fin 1000) (q : Fin 512), j = ix2 p q := ⟨j 0, j 1, eq_ix2 j⟩
  refine (pay_apply (iblk1 V c 0 t) (iblk1 V c 1 t) (iblk1 V c 2 t) p q).trans ?_
  obtain ⟨-, -, -, -, -, -, e0, e1⟩ := idx_facts t
  have ht : t.val < 20 := lt_of_lt_of_eq t.isLt N_1
  have hr : 1000 * t.val + p.val < 20000 := by have := p.isLt; omega
  refine Eq.trans ?_ (SageLayer.denseRelu_apply_of 20000 1024 512 (V c main_v46) (V c main_v47) (V c main_v48) _
    (⟨1000 * t.val + p.val, hr⟩ : Fin 20000) q
    (by show win1_3.index t 0 * 1000 + 1 * p.val = 1000 * t.val + p.val; rw [e0]; omega)
    (by show win1_3.index t 1 * 512 + 1 * q.val = q.val; rw [e1]; omega)).symm
  refine congrArg (max · _) (congrArg₂ (· + ·) (Finset.sum_congr rfl fun k _ => congrArg₂ (· * ·) ?_ ?_) ?_)
  · exact blkA_apply V c t (ix2 p k) (ix2 (⟨1000 * t.val + p.val, hr⟩ : Fin 20000) k) rfl rfl
  · exact blkW_apply V c t (ix2 k q)
  · exact blkB_apply V c t (ix2 0 q)

/-- An index of the output array is in point `t`'s block iff each coordinate is in the block's range on its axis. -/
theorem mem_blk (t : Fin cfg1.N) (i : S20000x512.Idx) :
    i ∈ ((cfg1.win 3).blk t).view.set ↔ ∀ a : Fin 2, win1_3.index t a * S1000x512.size a ≤ (i a).val
      ∧ (i a).val < win1_3.index t a * S1000x512.size a + S1000x512.size a := by
  show i ∈ ((View.whole main_v49).slice (win1_3.rect t)).set ↔ _
  rw [View.set_slice_whole, Rect.mem_set_unit]
  exact Iff.rfl

/-- The 20 row blocks tile the output: row r lies in the block of point r / 1000. -/
theorem cover (i : S20000x512.Idx) :
    ∃ t : Fin cfg1.N, (cfg1.win 3).flush t = true ∧ i ∈ ((cfg1.win 3).blk t).view.set := by
  have hi0 : (i 0).val < 20000 := (i 0).isLt
  have hi1 : (i 1).val < 512 := (i 1).isLt
  have hN : cfg1.N = 20 := N_1
  have hlt : (i 0).val / 1000 < cfg1.N := by rw [hN]; omega
  obtain ⟨-, -, -, -, -, -, e0, e1⟩ := idx_facts ⟨(i 0).val / 1000, hlt⟩
  refine ⟨⟨(i 0).val / 1000, hlt⟩, flush1_3 _, ?_⟩
  rw [mem_blk]
  intro a
  match a with
  | ⟨0, _⟩ =>
    show win1_3.index ⟨(i 0).val / 1000, hlt⟩ 0 * 1000 ≤ (i 0).val ∧ (i 0).val < win1_3.index ⟨(i 0).val / 1000, hlt⟩ 0 * 1000 + 1000
    rw [e0]; show (i 0).val / 1000 * 1000 ≤ (i 0).val ∧ (i 0).val < (i 0).val / 1000 * 1000 + 1000; omega
  | ⟨1, _⟩ =>
    show win1_3.index ⟨(i 0).val / 1000, hlt⟩ 1 * 512 ≤ (i 1).val ∧ (i 1).val < win1_3.index ⟨(i 0).val / 1000, hlt⟩ 1 * 512 + 512
    rw [e1]; omega

/-- THE OUTPUT ARRAY after the region: the rectified layer of the arrays the region was entered with. -/
theorem value (c : Dev nD) : (dat1 V c).arrAt 3 cfg1.N
    = SageLayer.denseRelu 20000 1024 512 (V c main_v46) (V c main_v47) (V c main_v48) :=
  (dat1 V c).arrAt_eq_of_cover 3 _ (fun t _ => flushed_eq V c t) cover

end Cert.KernelIdeal.Region1

end
-- ==== Proof.Region2.lean ====
/-
  The third dense layer's kernel region, as one function of the arrays it is entered with.

  The region walks the 20000 rows of its left operand in 20 blocks of 1000.  At block `t` the body multiplies rows
  `1000 t … 1000 t + 999` of the left operand by the whole weight matrix, adds the bias row, takes the maximum with
  zero, and writes the result back to the same rows of the output.  Entry (p, q) of the block written at point `t` is
  therefore entry (1000 t + p, q) of `denseRelu` of the whole arrays; the 20 blocks tile the output, so after the
  region the output array IS `denseRelu` of the three arrays the region was entered with, whatever those were.
-/
import proofs.«153768_j44839458570700_1_alg».proof.Proof.Gen.KernelIdeal.Frame
import proofs.«153768_j44839458570700_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's contraction is the plain product of a 1000 × 1024 by a 1024 × 1024 matrix. -/
theorem dims_eq : dot_S1000x1024_S1024x1024_S1000x1024_1_0_0_1_n_n = DotDims.plain 1000 1024 1024 := rfl

/-- What the body stores, at entry (p, q) of the block: the row's contraction with the weights' column, plus the
    bias at q, rectified.  (Narrowing to bf16 is the identity on the extended reals.) -/
theorem pay_apply (x0 : Vec Ideal S1000x1024 .f32) (x1 : Vec Ideal S1024x1024 .f32) (x2 : Vec Ideal S1x1024 .f32)
    (p : Fin 1000) (q : Fin 1024) :
    k2_pay1 (F := Ideal) x0 x1 x2 (ix2 p q)
      = max ((∑ k : Fin 1024, x0 (ix2 p k) * x1 (ix2 k q)) + x2 (ix2 0 q)) (Ideal.ofBits .f32 0x00000000#32) := by
  unfold k2_pay1
  simp only [shapeCast_self, maximumf_apply, addf_apply, broadcast_apply]
  rw [dims_eq, SageLayer.matmul_plain_zero_apply, broadcastTo_1b_ab_apply]
  rfl

/-- Where each window's block sits at point `t`: the left operand's and the output's at block row `t`, the weights'
    and the bias's at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point `t` is rows `1000 t …` of the array. -/
theorem blkA_apply (c : Dev nD) (t : Fin cfg2.N) (x : S1000x1024.Idx) (i : S20000x1024.Idx)
    (h0 : (i 0).val = 1000 * t.val + (x 0).val) (h1 : (i 1).val = (x 1).val) :
    (iblk2 V c 0 t : Vec Ideal S1000x1024 .f32) x = (V c main_v69 : S20000x1024.Idx → EReal) i := by
  obtain ⟨e0, e1, -⟩ := idx_facts t
  unfold iblk2
  rw [View.read_apply]
  show V c main_v69 _ = V c main_v69 _
  congr 1
  funext a
  apply Fin.ext
  match a with
  | ⟨0, _⟩ => show win2_0.index t 0 * 1000 + 1 * (x 0).val = (i 0).val; rw [e0, h0]; omega
  | ⟨1, _⟩ => show win2_0.index t 1 * 1024 + 1 * (x 1).val = (i 1).val; rw [e1, h1]; omega

/-- The weights' block at every point is the whole weight array. -/
theorem blkW_apply (c : Dev nD) (t : Fin cfg2.N) (x : S1024x1024.Idx) :
    (iblk2 V c 1 t : Vec Ideal S1024x1024 .f32) x = (V c main_v70 : S1024x1024.Idx → EReal) x := by
  obtain ⟨-, -, e0, e1, -⟩ := idx_facts t
  unfold iblk2
  rw [View.read_apply]
  show V c main_v70 _ = V c main_v70 _
  congr 1
  funext a
  apply Fin.ext
  match a with
  | ⟨0, _⟩ => show win2_1.index t 0 * 1024 + 1 * (x 0).val = (x 0).val; rw [e0]; omega
  | ⟨1, _⟩ => show win2_1.index t 1 * 1024 + 1 * (x 1).val = (x 1).val; rw [e1]; omega

/-- The bias's block at every point is the whole bias row. -/
theorem blkB_apply (c : Dev nD) (t : Fin cfg2.N) (x : S1x1024.Idx) :
    (iblk2 V c 2 t : Vec Ideal S1x1024 .f32) x = (V c main_v71 : S1x1024.Idx → EReal) x := by
  obtain ⟨-, -, -, -, e0, e1, -⟩ := idx_facts t
  unfold iblk2
  rw [View.read_apply]
  show V c main_v71 _ = V c main_v71 _
  congr 1
  funext a
  apply Fin.ext
  match a with
  | ⟨0, _⟩ => show win2_2.index t 0 * 1 + 1 * (x 0).val = (x 0).val; rw [e0]; omega
  | ⟨1, _⟩ => show win2_2.index t 1 * 1024 + 1 * (x 1).val = (x 1).val; rw [e1]; omega

/-- WHAT POINT `t` WRITES BACK is block `t` of the rectified layer of the arrays the region was entered with: entry
    (p, q) of the block is entry (1000 t + p, q) of the layer, whose row is the block's row p and whose weights and bias
    are the whole arrays. -/
theorem flushed_eq (c : Dev nD) (t : Fin cfg2.N) :
    (dat2 V c).flushed 3 t = ((cfg2.win 3).blk t).view.read (Elt Ideal)
      (SageLayer.denseRelu 20000 1024 1024 (V c main_v69) (V c main_v70) (V c main_v71)) := by
  show (cfg2.win 3).cut (grid2.coords t) ((dat2 V c).after 3 t) = _
  rw [after2_3]
  unfold out2_3
  rw [View.canon_unit_zero hz]
  simp only [View.ld_unit_zero (S := S1000x1024) hz, View.ld_unit_zero (S := S1024x1024) hz, View.ld_unit_zero (S := S1x1024) hz]
  funext j
  revert j
  show ∀ j : S1000x1024.Idx, k2_pay1 (F := Ideal) (iblk2 V c 0 t) (iblk2 V c 1 t) (iblk2 V c 2 t) j
      = SageLayer.denseRelu 20000 1024 1024 (V c main_v69) (V c main_v70) (V c main_v71) (((cfg2.win 3).blk t).view.emb j)
  intro j
  obtain ⟨p, q, rfl⟩ : ∃ (p : Fin 1000) (q : Fin 1024), j = ix2 p q := ⟨j 0, j 1, eq_ix2 j⟩
  refine (pay_apply (iblk2 V c 0 t) (iblk2 V c 1 t) (iblk2 V c 2 t) p q).trans ?_
  obtain ⟨-, -, -, -, -, -, e0, e1⟩ := idx_facts t
  have ht : t.val < 20 := lt_of_lt_of_eq t.isLt N_2
  have hr : 1000 * t.val + p.val < 20000 := by have := p.isLt; omega
  refine Eq.trans ?_ (SageLayer.denseRelu_apply_of 20000 1024 1024 (V c main_v69) (V c main_v70) (V c main_v71) _
    (⟨1000 * t.val + p.val, hr⟩ : Fin 20000) q
    (by show win2_3.index t 0 * 1000 + 1 * p.val = 1000 * t.val + p.val; rw [e0]; omega)
    (by show win2_3.index t 1 * 1024 + 1 * q.val = q.val; rw [e1]; omega)).symm
  refine congrArg (max · _) (congrArg₂ (· + ·) (Finset.sum_congr rfl fun k _ => congrArg₂ (· * ·) ?_ ?_) ?_)
  · exact blkA_apply V c t (ix2 p k) (ix2 (⟨1000 * t.val + p.val, hr⟩ : Fin 20000) k) rfl rfl
  · exact blkW_apply V c t (ix2 k q)
  · exact blkB_apply V c t (ix2 0 q)

/-- An index of the output array is in point `t`'s block iff each coordinate is in the block's range on its axis. -/
theorem mem_blk (t : Fin cfg2.N) (i : S20000x1024.Idx) :
    i ∈ ((cfg2.win 3).blk t).view.set ↔ ∀ a : Fin 2, win2_3.index t a * S1000x1024.size a ≤ (i a).val
      ∧ (i a).val < win2_3.index t a * S1000x1024.size a + S1000x1024.size a := by
  show i ∈ ((View.whole main_v72).slice (win2_3.rect t)).set ↔ _
  rw [View.set_slice_whole, Rect.mem_set_unit]
  exact Iff.rfl

/-- The 20 row blocks tile the output: row r lies in the block of point r / 1000. -/
theorem cover (i : S20000x1024.Idx) :
    ∃ t : Fin cfg2.N, (cfg2.win 3).flush t = true ∧ i ∈ ((cfg2.win 3).blk t).view.set := by
  have hi0 : (i 0).val < 20000 := (i 0).isLt
  have hi1 : (i 1).val < 1024 := (i 1).isLt
  have hN : cfg2.N = 20 := N_2
  have hlt : (i 0).val / 1000 < cfg2.N := by rw [hN]; omega
  obtain ⟨-, -, -, -, -, -, e0, e1⟩ := idx_facts ⟨(i 0).val / 1000, hlt⟩
  refine ⟨⟨(i 0).val / 1000, hlt⟩, flush2_3 _, ?_⟩
  rw [mem_blk]
  intro a
  match a with
  | ⟨0, _⟩ =>
    show win2_3.index ⟨(i 0).val / 1000, hlt⟩ 0 * 1000 ≤ (i 0).val ∧ (i 0).val < win2_3.index ⟨(i 0).val / 1000, hlt⟩ 0 * 1000 + 1000
    rw [e0]; show (i 0).val / 1000 * 1000 ≤ (i 0).val ∧ (i 0).val < (i 0).val / 1000 * 1000 + 1000; omega
  | ⟨1, _⟩ =>
    show win2_3.index ⟨(i 0).val / 1000, hlt⟩ 1 * 1024 ≤ (i 1).val ∧ (i 1).val < win2_3.index ⟨(i 0).val / 1000, hlt⟩ 1 * 1024 + 1024
    rw [e1]; omega

/-- THE OUTPUT ARRAY after the region: the rectified layer of the arrays the region was entered with. -/
theorem value (c : Dev nD) : (dat2 V c).arrAt 3 cfg2.N
    = SageLayer.denseRelu 20000 1024 1024 (V c main_v69) (V c main_v70) (V c main_v71) :=
  (dat2 V c).arrAt_eq_of_cover 3 _ (fun t _ => flushed_eq V c t) cover

end Cert.KernelIdeal.Region2

end
-- ==== Proof.Region3.lean ====
/-
  The last dense layer's kernel region, as one function of the arrays it is entered with.

  The region walks the 20000 rows of its left operand in 20 blocks of 1000.  At block `t` the body multiplies rows
  `1000 t … 1000 t + 999` of the left operand by the whole weight matrix, adds the bias row, and writes the result back to the same rows of the output.  Entry (p, q) of the block written at point `t` is
  therefore entry (1000 t + p, q) of `dense` of the whole arrays; the 20 blocks tile the output, so after the
  region the output array IS `dense` of the three arrays the region was entered with, whatever those were.
-/
import proofs.«153768_j44839458570700_1_alg».proof.Proof.Gen.KernelIdeal.Frame
import proofs.«153768_j44839458570700_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's contraction is the plain product of a 1000 × 1024 by a 1024 × 512 matrix. -/
theorem dims_eq : dot_S1000x1024_S1024x512_S1000x512_1_0_0_1_n_n = DotDims.plain 1000 1024 512 := rfl

/-- What the body stores, at entry (p, q) of the block: the row's contraction with the weights' column, plus the
    bias at q.  (Narrowing to bf16 is the identity on the extended reals.) -/
theorem pay_apply (x0 : Vec Ideal S1000x1024 .f32) (x1 : Vec Ideal S1024x512 .f32) (x2 : Vec Ideal S1x512 .f32)
    (p : Fin 1000) (q : Fin 512) :
    k3_pay1 (F := Ideal) x0 x1 x2 (ix2 p q)
      = (∑ k : Fin 1024, x0 (ix2 p k) * x1 (ix2 k q)) + x2 (ix2 0 q) := by
  unfold k3_pay1
  simp only [shapeCast_self, addf_apply]
  rw [dims_eq, SageLayer.matmul_plain_zero_apply, broadcastTo_1b_ab_apply]
  rfl

/-- Where each window's block sits at point `t`: the left operand's and the output's at block row `t`, the weights'
    and the bias's at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The left operand's block at point `t` is rows `1000 t …` of the array. -/
theorem blkA_apply (c : Dev nD) (t : Fin cfg3.N) (x : S1000x1024.Idx) (i : S20000x1024.Idx)
    (h0 : (i 0).val = 1000 * t.val + (x 0).val) (h1 : (i 1).val = (x 1).val) :
    (iblk3 V c 0 t : Vec Ideal S1000x1024 .f32) x = (V c main_v72 : S20000x1024.Idx → EReal) i := by
  obtain ⟨e0, e1, -⟩ := idx_facts t
  unfold iblk3
  rw [View.read_apply]
  show V c main_v72 _ = V c main_v72 _
  congr 1
  funext a
  apply Fin.ext
  match a with
  | ⟨0, _⟩ => show win3_0.index t 0 * 1000 + 1 * (x 0).val = (i 0).val; rw [e0, h0]; omega
  | ⟨1, _⟩ => show win3_0.index t 1 * 1024 + 1 * (x 1).val = (i 1).val; rw [e1, h1]; omega

/-- The weights' block at every point is the whole weight array. -/
theorem blkW_apply (c : Dev nD) (t : Fin cfg3.N) (x : S1024x512.Idx) :
    (iblk3 V c 1 t : Vec Ideal S1024x512 .f32) x = (V c main_arg11 : S1024x512.Idx → EReal) x := by
  obtain ⟨-, -, e0, e1, -⟩ := idx_facts t
  unfold iblk3
  rw [View.read_apply]
  show V c main_arg11 _ = V c main_arg11 _
  congr 1
  funext a
  apply Fin.ext
  match a with
  | ⟨0, _⟩ => show win3_1.index t 0 * 1024 + 1 * (x 0).val = (x 0).val; rw [e0]; omega
  | ⟨1, _⟩ => show win3_1.index t 1 * 512 + 1 * (x 1).val = (x 1).val; rw [e1]; omega

/-- The bias's block at every point is the whole bias row. -/
theorem blkB_apply (c : Dev nD) (t : Fin cfg3.N) (x : S1x512.Idx) :
    (iblk3 V c 2 t : Vec Ideal S1x512 .f32) x = (V c main_v73 : S1x512.Idx → EReal) x := by
  obtain ⟨-, -, -, -, e0, e1, -⟩ := idx_facts t
  unfold iblk3
  rw [View.read_apply]
  show V c main_v73 _ = V c main_v73 _
  congr 1
  funext a
  apply Fin.ext
  match a with
  | ⟨0, _⟩ => show win3_2.index t 0 * 1 + 1 * (x 0).val = (x 0).val; rw [e0]; omega
  | ⟨1, _⟩ => show win3_2.index t 1 * 512 + 1 * (x 1).val = (x 1).val; rw [e1]; omega

/-- WHAT POINT `t` WRITES BACK is block `t` of the layer of the arrays the region was entered with: entry
    (p, q) of the block is entry (1000 t + p, q) of the layer, whose row is the block's row p and whose weights and bias
    are the whole arrays. -/
theorem flushed_eq (c : Dev nD) (t : Fin cfg3.N) :
    (dat3 V c).flushed 3 t = ((cfg3.win 3).blk t).view.read (Elt Ideal)
      (SageLayer.dense 20000 1024 512 (V c main_v72) (V c main_arg11) (V c main_v73)) := by
  show (cfg3.win 3).cut (grid3.coords t) ((dat3 V c).after 3 t) = _
  rw [after3_3]
  unfold out3_3
  rw [View.canon_unit_zero hz]
  simp only [View.ld_unit_zero (S := S1000x1024) hz, View.ld_unit_zero (S := S1024x512) hz, View.ld_unit_zero (S := S1x512) hz]
  funext j
  revert j
  show ∀ j : S1000x512.Idx, k3_pay1 (F := Ideal) (iblk3 V c 0 t) (iblk3 V c 1 t) (iblk3 V c 2 t) j
      = SageLayer.dense 20000 1024 512 (V c main_v72) (V c main_arg11) (V c main_v73) (((cfg3.win 3).blk t).view.emb j)
  intro j
  obtain ⟨p, q, rfl⟩ : ∃ (p : Fin 1000) (q : Fin 512), j = ix2 p q := ⟨j 0, j 1, eq_ix2 j⟩
  refine (pay_apply (iblk3 V c 0 t) (iblk3 V c 1 t) (iblk3 V c 2 t) p q).trans ?_
  obtain ⟨-, -, -, -, -, -, e0, e1⟩ := idx_facts t
  have ht : t.val < 20 := lt_of_lt_of_eq t.isLt N_3
  have hr : 1000 * t.val + p.val < 20000 := by have := p.isLt; omega
  refine Eq.trans ?_ (SageLayer.dense_apply_of 20000 1024 512 (V c main_v72) (V c main_arg11) (V c main_v73) _
    (⟨1000 * t.val + p.val, hr⟩ : Fin 20000) q
    (by show win3_3.index t 0 * 1000 + 1 * p.val = 1000 * t.val + p.val; rw [e0]; omega)
    (by show win3_3.index t 1 * 512 + 1 * q.val = q.val; rw [e1]; omega)).symm
  refine congrArg₂ (· + ·) (Finset.sum_congr rfl fun k _ => congrArg₂ (· * ·) ?_ ?_) ?_
  · exact blkA_apply V c t (ix2 p k) (ix2 (⟨1000 * t.val + p.val, hr⟩ : Fin 20000) k) rfl rfl
  · exact blkW_apply V c t (ix2 k q)
  · exact blkB_apply V c t (ix2 0 q)

/-- An index of the output array is in point `t`'s block iff each coordinate is in the block's range on its axis. -/
theorem mem_blk (t : Fin cfg3.N) (i : S20000x512.Idx) :
    i ∈ ((cfg3.win 3).blk t).view.set ↔ ∀ a : Fin 2, win3_3.index t a * S1000x512.size a ≤ (i a).val
      ∧ (i a).val < win3_3.index t a * S1000x512.size a + S1000x512.size a := by
  show i ∈ ((View.whole main_v74).slice (win3_3.rect t)).set ↔ _
  rw [View.set_slice_whole, Rect.mem_set_unit]
  exact Iff.rfl

/-- The 20 row blocks tile the output: row r lies in the block of point r / 1000. -/
theorem cover (i : S20000x512.Idx) :
    ∃ t : Fin cfg3.N, (cfg3.win 3).flush t = true ∧ i ∈ ((cfg3.win 3).blk t).view.set := by
  have hi0 : (i 0).val < 20000 := (i 0).isLt
  have hi1 : (i 1).val < 512 := (i 1).isLt
  have hN : cfg3.N = 20 := N_3
  have hlt : (i 0).val / 1000 < cfg3.N := by rw [hN]; omega
  obtain ⟨-, -, -, -, -, -, e0, e1⟩ := idx_facts ⟨(i 0).val / 1000, hlt⟩
  refine ⟨⟨(i 0).val / 1000, hlt⟩, flush3_3 _, ?_⟩
  rw [mem_blk]
  intro a
  match a with
  | ⟨0, _⟩ =>
    show win3_3.index ⟨(i 0).val / 1000, hlt⟩ 0 * 1000 ≤ (i 0).val ∧ (i 0).val < win3_3.index ⟨(i 0).val / 1000, hlt⟩ 0 * 1000 + 1000
    rw [e0]; show (i 0).val / 1000 * 1000 ≤ (i 0).val ∧ (i 0).val < (i 0).val / 1000 * 1000 + 1000; omega
  | ⟨1, _⟩ =>
    show win3_3.index ⟨(i 0).val / 1000, hlt⟩ 1 * 512 ≤ (i 1).val ∧ (i 1).val < win3_3.index ⟨(i 0).val / 1000, hlt⟩ 1 * 512 + 512
    rw [e1]; omega

/-- THE OUTPUT ARRAY after the region: the layer of the arrays the region was entered with. -/
theorem value (c : Dev nD) : (dat3 V c).arrAt 3 cfg3.N
    = SageLayer.dense 20000 1024 512 (V c main_v72) (V c main_arg11) (V c main_v73) :=
  (dat3 V c).arrAt_eq_of_cover 3 _ (fun t _ => flushed_eq V c t) cover

end Cert.KernelIdeal.Region3

end
-- ==== Proof.LayerLaw.lean ====
/-
  One SAGE layer at one output entry, on the extended reals.

  The fused form contracts the concatenated row `[mean | h]` (length `d + d`) against the stacked weight column
  `[Wl ; Wr]` and then adds the bias; the plain form contracts `mean` against `Wl`, adds the bias, and then adds the
  contraction of `h` against `Wr`.  A sum over `d + d` positions is the sum over the first `d` plus the sum over the last
  `d`, and the two forms then differ only by the grouping `(s₁ + s₂) + b = (s₁ + b) + s₂`, which holds in any commutative
  additive monoid: no entry has to be finite.
-/
import Mathlib.Algebra.BigOperators.Fin
import Mathlib.Data.EReal.Basic

open scoped BigOperators

namespace SageLayer

/-- The fused contraction over `d + d` positions, split where the concatenation joins, and regrouped around the bias. -/
theorem fused_eq_plain {d : Nat} (A W : Fin (d + d) → EReal) (mean h wl wr : Fin d → EReal) (b : EReal)
    (hAl : ∀ k : Fin d, A (Fin.castAdd d k) = mean k) (hAr : ∀ k : Fin d, A (Fin.natAdd d k) = h k)
    (hWl : ∀ k : Fin d, W (Fin.castAdd d k) = wl k) (hWr : ∀ k : Fin d, W (Fin.natAdd d k) = wr k) :
    (∑ k : Fin (d + d), A k * W k) + b = ((∑ k : Fin d, mean k * wl k) + b) + ∑ k : Fin d, h k * wr k := by
  rw [Fin.sum_univ_add]
  simp only [hAl, hAr, hWl, hWr]
  exact add_right_comm _ _ _

end SageLayer
-- ==== Proof.FusedLayer.lean ====
/-
  The fused dense layer read at one entry.

  The kernel's program forms, on the host, the row-wise concatenation `[mean | h]` (n × (d + d)), the stacked weights
  `[Wl ; Wr]` ((d + d) × N) and the bias as a row (1 × N), and hands them to one dense layer.  At entry (p, q) that
  layer's contraction runs over `d + d` positions; the first `d` read `mean` and `Wl`, the last `d` read `h` and `Wr`
  (a two-piece concatenation reads its first piece below the first extent and its second piece, shifted, from there
  on), and the reshaped bias at (0, q) is the bias at q.  So the entry is
  `(Σ_k mean[p,k]·Wl[k,q] + b[q]) + Σ_k h[p,k]·Wr[k,q]`, the plain SAGE layer's entry.
-/
import proofs.«153768_j44839458570700_1_alg».proof.Proof.DenseSpec
import proofs.«153768_j44839458570700_1_alg».proof.Proof.LayerLaw
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx

namespace SageLayer

variable {n d N : Nat}

/-- `[a | h]` at column k < d is `a` at column k. -/
theorem catCols_left (a h : FVec Ideal ⟨2, ![n, d]⟩ .f32)
    (hc : Shape.Concatenates [(⟨2, ![n, d]⟩ : Shape), ⟨2, ![n, d]⟩] ⟨2, ![n, d + d]⟩ 1) (p : Fin n) (k : Fin d) :
    concatenate ⟨2, ![n, d + d]⟩ 1 [⟨⟨2, ![n, d]⟩, a⟩, ⟨⟨2, ![n, d]⟩, h⟩] hc (ix2 p (Fin.castAdd d k)) = a (ix2 p k) :=
  concatenate_pair_apply_left 1 a h hc (ix2 p (Fin.castAdd d k)) rfl (ix2 p k)
    (fun b => by match b with | ⟨0, _⟩ => rfl | ⟨1, _⟩ => rfl)

/-- `[a | h]` at column d + k is `h` at column k. -/
theorem catCols_right (a h : FVec Ideal ⟨2, ![n, d]⟩ .f32)
    (hc : Shape.Concatenates [(⟨2, ![n, d]⟩ : Shape), ⟨2, ![n, d]⟩] ⟨2, ![n, d + d]⟩ 1) (p : Fin n) (k : Fin d) :
    concatenate ⟨2, ![n, d + d]⟩ 1 [⟨⟨2, ![n, d]⟩, a⟩, ⟨⟨2, ![n, d]⟩, h⟩] hc (ix2 p (Fin.natAdd d k)) = h (ix2 p k) :=
  concatenate_pair_apply_right 1 a h hc (ix2 p (Fin.natAdd d k)) rfl rfl (ix2 p k)
    (fun b hb => by match b with | ⟨0, _⟩ => rfl | ⟨1, _⟩ => exact absurd rfl hb)
    (by show k.val + d = d + k.val; omega)

/-- `[wl ; wr]` at row k < d is `wl` at row k. -/
theorem catRows_left (wl wr : FVec Ideal ⟨2, ![d, N]⟩ .f32)
    (hc : Shape.Concatenates [(⟨2, ![d, N]⟩ : Shape), ⟨2, ![d, N]⟩] ⟨2, ![d + d, N]⟩ 0) (k : Fin d) (q : Fin N) :
    concatenate ⟨2, ![d + d, N]⟩ 0 [⟨⟨2, ![d, N]⟩, wl⟩, ⟨⟨2, ![d, N]⟩, wr⟩] hc (ix2 (Fin.castAdd d k) q) = wl (ix2 k q) :=
  concatenate_pair_apply_left 0 wl wr hc (ix2 (Fin.castAdd d k) q) rfl (ix2 k q)
    (fun b => by match b with | ⟨0, _⟩ => rfl | ⟨1, _⟩ => rfl)

/-- `[wl ; wr]` at row d + k is `wr` at row k. -/
theorem catRows_right (wl wr : FVec Ideal ⟨2, ![d, N]⟩ .f32)
    (hc : Shape.Concatenates [(⟨2, ![d, N]⟩ : Shape), ⟨2, ![d, N]⟩] ⟨2, ![d + d, N]⟩ 0) (k : Fin d) (q : Fin N) :
    concatenate ⟨2, ![d + d, N]⟩ 0 [⟨⟨2, ![d, N]⟩, wl⟩, ⟨⟨2, ![d, N]⟩, wr⟩] hc (ix2 (Fin.natAdd d k) q) = wr (ix2 k q) :=
  concatenate_pair_apply_right 0 wl wr hc (ix2 (Fin.natAdd d k) q) rfl rfl (ix2 k q)
    (fun b hb => by match b with | ⟨0, _⟩ => exact absurd rfl hb | ⟨1, _⟩ => rfl)
    (by show k.val + d = d + k.val; omega)

/-- The dense layer of `[a | h]`, `[wl ; wr]` and the bias as a row, at entry (p, q): the plain layer's entry. -/
theorem dense_fused_apply (a h : FVec Ideal ⟨2, ![n, d]⟩ .f32) (wl wr : FVec Ideal ⟨2, ![d, N]⟩ .f32)
    (b : FVec Ideal ⟨1, ![N]⟩ .f32)
    (hcA : Shape.Concatenates [(⟨2, ![n, d]⟩ : Shape), ⟨2, ![n, d]⟩] ⟨2, ![n, d + d]⟩ 1)
    (hcW : Shape.Concatenates [(⟨2, ![d, N]⟩ : Shape), ⟨2, ![d, N]⟩] ⟨2, ![d + d, N]⟩ 0)
    (hs : (⟨1, ![N]⟩ : Shape).ShapeCasts ⟨2, ![1, N]⟩) (p : Fin n) (q : Fin N) :
    dense n (d + d) N (concatenate ⟨2, ![n, d + d]⟩ 1 [⟨⟨2, ![n, d]⟩, a⟩, ⟨⟨2, ![n, d]⟩, h⟩] hcA)
        (concatenate ⟨2, ![d + d, N]⟩ 0 [⟨⟨2, ![d, N]⟩, wl⟩, ⟨⟨2, ![d, N]⟩, wr⟩] hcW)
        (shapeCast ⟨2, ![1, N]⟩ b hs) (ix2 p q)
      = ((∑ k : Fin d, a (ix2 p k) * wl (ix2 k q)) + b (ix1 q)) + ∑ k : Fin d, h (ix2 p k) * wr (ix2 k q) := by
  rw [dense_apply_of n (d + d) N _ _ _ (ix2 p q) p q rfl rfl, shapeCast_a_1a_apply b hs 0 q]
  exact fused_eq_plain _ _ (fun k => a (ix2 p k)) (fun k => h (ix2 p k)) (fun k => wl (ix2 k q)) (fun k => wr (ix2 k q)) (b (ix1 q))
    (fun k => catCols_left a h hcA p k) (fun k => catCols_right a h hcA p k)
    (fun k => catRows_left wl wr hcW k q) (fun k => catRows_right wl wr hcW k q)

end SageLayer

end
-- ==== Proof.Bridge.lean ====
/-
  The two programs' layers, array by array.

  Each of the three SAGE layers is, in the kernel's program, one rectified dense layer applied to the concatenation
  `[mean | h]`, the stacked weights `[Wl ; Wr]` and the bias as a row; in the reference it is
  `max(mean · Wl + b + h · Wr, 0)`.  Here `mean` and `h` are arbitrary arrays: the aggregation that produces `mean` is
  the same chain of host operations in both programs and is never opened.  The last layer is a plain dense layer in
  both programs, `h · W + b`, the bias broadcast down the rows.  Entry by entry the two forms are equal on the extended
  reals: a product accumulated into zero and the host's product are the same sum over the contracted coordinate, and
  the fused layer's sum over `d + d` positions splits where the concatenation joins.
-/
import proofs.«153768_j44839458570700_1_alg».proof.KernelIdeal
import proofs.«153768_j44839458570700_1_alg».proof.Proof.Gen.ReferenceIdeal.Read
import proofs.«153768_j44839458570700_1_alg».proof.Proof.FusedLayer
import Idealize.ShloMosaic.Lib.StackMember
import Idealize.ShloMosaic.Lib.ValueIdx
import Idealize.ShloMosaic.Lib.ValueLayout

noncomputable section

open scoped BigOperators
open Idealize.ShloMosaic Idealize.ShloMosaic.ValueIdx
open Cert.KernelIdeal Cert.ReferenceIdeal.Read

namespace Cert.Bridge

/-- The first SAGE layer: the rectified dense layer of `[a | h]`, `[wl ; wr]` and the bias row is the plain form
    `max(a · wl + b + h · wr, 0)`, entry by entry (the contraction over 512 positions splits at 256; the sum is regrouped
    around the bias). -/
theorem layer1 (a h : FVec Ideal S20000x256 .f32) (wl wr : FVec Ideal S256x512 .f32) (b : FVec Ideal S512 .f32)
    (hcA : Shape.Concatenates [S20000x256, S20000x256] S20000x512 1) (hcW : Shape.Concatenates [S256x512, S256x512] S512x512 0)
    (hs : S512.ShapeCasts S1x512) :
    SageLayer.denseRelu 20000 512 512
        (concatenate S20000x512 1 [⟨S20000x256, a⟩, ⟨S20000x256, h⟩] hcA)
        (concatenate S512x512 0 [⟨S256x512, wl⟩, ⟨S256x512, wr⟩] hcW)
        (shapeCast S1x512 b hs)
      = maximumf (addf (addf (Host.dotGeneral Cert.ReferenceIdeal.dot_S20000x256_S256x512_S20000x512_1_0_0_1_n_n none a wl) (val_main_v25 (F := Ideal) b))
          (Host.dotGeneral Cert.ReferenceIdeal.dot_S20000x256_S256x512_S20000x512_1_0_0_1_n_n none h wr)) (val_main_call0_v0 (F := Ideal)) := by
  funext j
  obtain ⟨p, q, rfl⟩ : ∃ (p : Fin 20000) (q : Fin 512), j = ix2 p q := ⟨j 0, j 1, eq_ix2 j⟩
  rw [maximumf_apply, addf_apply, addf_apply]
  have key := SageLayer.dense_fused_apply (n := 20000) (d := 256) (N := 512) a h wl wr b hcA hcW hs p q
  refine (congrArg (max · (Ideal.ofBits .f32 0x00000000#32)) key).trans ?_
  have hd (u : FVec Ideal S20000x256 .f32) (w : FVec Ideal S256x512 .f32) :
      Host.dotGeneral Cert.ReferenceIdeal.dot_S20000x256_S256x512_S20000x512_1_0_0_1_n_n none u w (ix2 p q) = ∑ k : Fin 256, u (ix2 p k) * w (ix2 k q) :=
    StackMember.dotGeneral_plain_apply none u w p q
  have hb : val_main_v25 (F := Ideal) b (ix2 p q) = b (ix1 q) := by
    rw [val_main_v25_apply, val_main_v24_apply]
    exact congrArg b (funext fun x => by match x with | ⟨0, _⟩ => rfl)
  have hz : val_main_call0_v0 (F := Ideal) (ix2 p q) = Ideal.ofBits .f32 0x00000000#32 := by
    rw [val_main_call0_v0_apply]; rfl
  rw [hd, hd, hb, hz]

/-- The second SAGE layer: the rectified dense layer of `[a | h]`, `[wl ; wr]` and the bias row is the plain form
    `max(a · wl + b + h · wr, 0)`, entry by entry (the contraction over 1024 positions splits at 512; the sum is regrouped
    around the bias). -/
theorem layer2 (a h : FVec Ideal S20000x512 .f32) (wl wr : FVec Ideal S512x512 .f32) (b : FVec Ideal S512 .f32)
    (hcA : Shape.Concatenates [S20000x512, S20000x512] S20000x1024 1) (hcW : Shape.Concatenates [S512x512, S512x512] S1024x512 0)
    (hs : S512.ShapeCasts S1x512) :
    SageLayer.denseRelu 20000 1024 512
        (concatenate S20000x1024 1 [⟨S20000x512, a⟩, ⟨S20000x512, h⟩] hcA)
        (concatenate S1024x512 0 [⟨S512x512, wl⟩, ⟨S512x512, wr⟩] hcW)
        (shapeCast S1x512 b hs)
      = maximumf (addf (addf (Host.dotGeneral Cert.ReferenceIdeal.dot_S20000x512_S512x512_S20000x512_1_0_0_1_n_n none a wl) (val_main_v51 (F := Ideal) b))
          (Host.dotGeneral Cert.ReferenceIdeal.dot_S20000x512_S512x512_S20000x512_1_0_0_1_n_n none h wr)) (val_main_call1_v0 (F := Ideal)) := by
  funext j
  obtain ⟨p, q, rfl⟩ : ∃ (p : Fin 20000) (q : Fin 512), j = ix2 p q := ⟨j 0, j 1, eq_ix2 j⟩
  rw [maximumf_apply, addf_apply, addf_apply]
  have key := SageLayer.dense_fused_apply (n := 20000) (d := 512) (N := 512) a h wl wr b hcA hcW hs p q
  refine (congrArg (max · (Ideal.ofBits .f32 0x00000000#32)) key).trans ?_
  have hd (u : FVec Ideal S20000x512 .f32) (w : FVec Ideal S512x512 .f32) :
      Host.dotGeneral Cert.ReferenceIdeal.dot_S20000x512_S512x512_S20000x512_1_0_0_1_n_n none u w (ix2 p q) = ∑ k : Fin 512, u (ix2 p k) * w (ix2 k q) :=
    StackMember.dotGeneral_plain_apply none u w p q
  have hb : val_main_v51 (F := Ideal) b (ix2 p q) = b (ix1 q) := by
    rw [val_main_v51_apply, val_main_v50_apply]
    exact congrArg b (funext fun x => by match x with | ⟨0, _⟩ => rfl)
  have hz : val_main_call1_v0 (F := Ideal) (ix2 p q) = Ideal.ofBits .f32 0x00000000#32 := by
    rw [val_main_call1_v0_apply]; rfl
  rw [hd, hd, hb, hz]

/-- The third SAGE layer: the rectified dense layer of `[a | h]`, `[wl ; wr]` and the bias row is the plain form
    `max(a · wl + b + h · wr, 0)`, entry by entry (the contraction over 1024 positions splits at 512; the sum is regrouped
    around the bias). -/
theorem layer3 (a h : FVec Ideal S20000x512 .f32) (wl wr : FVec Ideal S512x1024 .f32) (b : FVec Ideal S1024 .f32)
    (hcA : Shape.Concatenates [S20000x512, S20000x512] S20000x1024 1) (hcW : Shape.Concatenates [S512x1024, S512x1024] S1024x1024 0)
    (hs : S1024.ShapeCasts S1x1024) :
    SageLayer.denseRelu 20000 1024 1024
        (concatenate S20000x1024 1 [⟨S20000x512, a⟩, ⟨S20000x512, h⟩] hcA)
        (concatenate S1024x1024 0 [⟨S512x1024, wl⟩, ⟨S512x1024, wr⟩] hcW)
        (shapeCast S1x1024 b hs)
      = maximumf (addf (addf (Host.dotGeneral Cert.ReferenceIdeal.dot_S20000x512_S512x1024_S20000x1024_1_0_0_1_n_n none a wl) (val_main_v77 (F := Ideal) b))
          (Host.dotGeneral Cert.ReferenceIdeal.dot_S20000x512_S512x1024_S20000x1024_1_0_0_1_n_n none h wr)) (val_main_call2_v0 (F := Ideal)) := by
  funext j
  obtain ⟨p, q, rfl⟩ : ∃ (p : Fin 20000) (q : Fin 1024), j = ix2 p q := ⟨j 0, j 1, eq_ix2 j⟩
  rw [maximumf_apply, addf_apply, addf_apply]
  have key := SageLayer.dense_fused_apply (n := 20000) (d := 512) (N := 1024) a h wl wr b hcA hcW hs p q
  refine (congrArg (max · (Ideal.ofBits .f32 0x00000000#32)) key).trans ?_
  have hd (u : FVec Ideal S20000x512 .f32) (w : FVec Ideal S512x1024 .f32) :
      Host.dotGeneral Cert.ReferenceIdeal.dot_S20000x512_S512x1024_S20000x1024_1_0_0_1_n_n none u w (ix2 p q) = ∑ k : Fin 512, u (ix2 p k) * w (ix2 k q) :=
    StackMember.dotGeneral_plain_apply none u w p q
  have hb : val_main_v77 (F := Ideal) b (ix2 p q) = b (ix1 q) := by
    rw [val_main_v77_apply, val_main_v76_apply]
    exact congrArg b (funext fun x => by match x with | ⟨0, _⟩ => rfl)
  have hz : val_main_call2_v0 (F := Ideal) (ix2 p q) = Ideal.ofBits .f32 0x00000000#32 := by
    rw [val_main_call2_v0_apply]; rfl
  rw [hd, hd, hb, hz]

/-- The last layer: the dense layer of `h`, the weights and the bias row is `h · W + b`, entry by entry. -/
theorem layerFc (h : FVec Ideal S20000x1024 .f32) (w : FVec Ideal S1024x512 .f32) (b : FVec Ideal S512 .f32)
    (hs : S512.ShapeCasts S1x512) :
    SageLayer.dense 20000 1024 512 h w (shapeCast S1x512 b hs)
      = addf (Host.dotGeneral Cert.ReferenceIdeal.dot_S20000x1024_S1024x512_S20000x512_1_0_0_1_n_n none h w)
          (val_main_v84 (F := Ideal) b) := by
  funext j
  obtain ⟨p, q, rfl⟩ : ∃ (p : Fin 20000) (q : Fin 512), j = ix2 p q := ⟨j 0, j 1, eq_ix2 j⟩
  rw [addf_apply, SageLayer.dense_apply_of 20000 1024 512 _ _ _ (ix2 p q) p q rfl rfl,
    shapeCast_a_1a_apply b hs 0 q]
  have hd : Host.dotGeneral Cert.ReferenceIdeal.dot_S20000x1024_S1024x512_S20000x512_1_0_0_1_n_n none h w (ix2 p q)
      = ∑ k : Fin 1024, h (ix2 p k) * w (ix2 k q) := StackMember.dotGeneral_plain_apply none h w p q
  have hb : val_main_v84 (F := Ideal) b (ix2 p q) = b (ix1 q) := by
    rw [val_main_v84_apply, val_main_v83_apply]
    exact congrArg b (funext fun x => by match x with | ⟨0, _⟩ => rfl)
  rw [hd, hb]

end Cert.Bridge

end
-- ==== Proof.KernelValue.lean ====
/-
  The kernel's program, boundary by boundary, against the reference's stages.

  @main of the kernel's program is four host stretches, each followed by a dense-layer region.  Walking it from
  the launch:  after the first stretch the first region's operands are `[mean₁ | x]`, `[Wl₁ ; Wr₁]` and the bias
  row, where `mean₁` is the aggregation of `x` (the very chain of host operations the reference applies, so it is
  the reference's own stage read at the kernel's arguments); the region leaves the rectified dense layer of them,
  which is the reference's first hidden array `h₁`.  The second and third stretches aggregate `h₁`, then `h₂`, over the
  same edge lists and concatenate again; their regions leave `h₂` and `h₃`.  The last stretch reshapes the last bias,
  and the last region leaves `h₃ · W + b`, the reference's result.  A buffer that a stretch or a region does not write
  is carried across it unchanged, so the edge lists computed by the first stretch and the argument arrays are still
  there where a later stretch reads them.
-/
import proofs.«153768_j44839458570700_1_alg».proof.Proof.Gen.KernelIdeal.Frame
import proofs.«153768_j44839458570700_1_alg».proof.Proof.Gen.ReferenceIdeal.Read
import proofs.«153768_j44839458570700_1_alg».proof.Proof.Region0
import proofs.«153768_j44839458570700_1_alg».proof.Proof.Region1
import proofs.«153768_j44839458570700_1_alg».proof.Proof.Region2
import proofs.«153768_j44839458570700_1_alg».proof.Proof.Region3
import proofs.«153768_j44839458570700_1_alg».proof.Proof.Bridge
import Idealize.ShloMosaic.Lib.StableHlo.Run

set_option maxRecDepth 16384

noncomputable section

open Idealize.ShloMosaic Idealize.ShloMosaic.TcCoe Idealize.SL.Sem Idealize.ShloMosaic.StableHlo
open Cert.KernelIdeal Cert.KernelIdeal.Gen Cert.ReferenceIdeal.Read

namespace Cert.KernelIdeal.Thread

variable (m : (ℓ : Loc nD τ sig) → Buf (Elt Ideal) ℓ) (ρ : Dev nD → PrngReg) (c : Dev nD)

/-! The argument arrays as launched. -/
abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)
abbrev x11 := m ((c : Thread nD τ).loc main_arg11)
abbrev x12 := m ((c : Thread nD τ).loc main_arg12)

/-- A buffer no operation of the stretch writes holds after it what it held before. -/
local macro "host_keeps" : tactic => `(tactic| (show StableHlo.after _ _ _ = _; after_results_simp <;> rfl))

/-! ## After the first stretch -/

/-- The source node of each edge. -/
theorem src_at1 : W1 m ρ c (Proc.devRef .tc main_v1) = val_main_v1 (F := Ideal) (x1 m c) := by
  show StableHlo.after hostOps0 (W0 m ρ c) (Proc.devRef .tc main_v1) = _
  after_results_simp <;> rfl

/-- The destination node of each edge. -/
theorem dst_at1 : W1 m ρ c (Proc.devRef .tc main_v3) = val_main_v3 (F := Ideal) (x1 m c) := by
  show StableHlo.after hostOps0 (W0 m ρ c) (Proc.devRef .tc main_v3) = _
  after_results_simp <;> rfl

/-- The first region's left operand: the aggregation of `x` beside `x`. -/
theorem opA_at1 : V1 m ρ c main_v23 = concatenate S20000x512 1 [⟨S20000x256, val_main_v22 (F := Ideal) (x0 m c) (x1 m c)⟩, ⟨S20000x256, (x0 m c)⟩]
    concatenates_S20000x256_S20000x256_S20000x512_d1 := by
  show StableHlo.after hostOps0 (W0 m ρ c) (Proc.devRef .tc main_v23) = _
  after_results_simp
  refine congrArg₂ (fun a b => concatenate S20000x512 1 [⟨S20000x256, a⟩, ⟨S20000x256, b⟩] concatenates_S20000x256_S20000x256_S20000x512_d1) ?_ ?_
  · after_results_simp <;> rfl
  · after_results_simp <;> rfl

/-- Its weights: the two weight matrices stacked. -/
theorem opW_at1 : V1 m ρ c main_v24 = concatenate S512x512 0 [⟨S256x512, (x2 m c)⟩, ⟨S256x512, (x4 m c)⟩]
    concatenates_S256x512_S256x512_S512x512_d0 := by
  show StableHlo.after hostOps0 (W0 m ρ c) (Proc.devRef .tc main_v24) = _
  after_results_simp
  refine congrArg₂ (fun a b => concatenate S512x512 0 [⟨S256x512, a⟩, ⟨S256x512, b⟩] concatenates_S256x512_S256x512_S512x512_d0) ?_ ?_
  · after_results_simp <;> rfl
  · after_results_simp <;> rfl

/-- Its bias, as a row. -/
theorem opB_at1 : V1 m ρ c main_v25 = shapeCast S1x512 (x3 m c) shapeCasts_S512_S1x512 := by
  show StableHlo.after hostOps0 (W0 m ρ c) (Proc.devRef .tc main_v25) = _
  after_results_simp <;> rfl

/-! ## After the first region -/

/-- The first hidden array: the reference's `h₁`. -/
theorem h1_at2 : W2 m ρ c (Proc.devRef .tc main_v26) = val_main_v29 (F := Ideal) (x0 m c) (x1 m c) (x2 m c) (x3 m c) (x4 m c) := by
  refine (W2_arr m ρ c 3).trans ?_
  rw [Region0.value (V1 m ρ) c, opA_at1 m ρ c, opW_at1 m ρ c, opB_at1 m ρ c,
    Cert.Bridge.layer1 (val_main_v22 (F := Ideal) (x0 m c) (x1 m c)) (x0 m c) (x2 m c) (x4 m c) (x3 m c)]
  rfl

theorem src_at2 : W2 m ρ c (Proc.devRef .tc main_v1) = val_main_v1 (F := Ideal) (x1 m c) :=
  (W2_of_ne m ρ c main_v1 (by decide)).trans (src_at1 m ρ c)
theorem dst_at2 : W2 m ρ c (Proc.devRef .tc main_v3) = val_main_v3 (F := Ideal) (x1 m c) :=
  (W2_of_ne m ρ c main_v3 (by decide)).trans (dst_at1 m ρ c)
theorem arg5_at2 : W2 m ρ c (Proc.devRef .tc main_arg5) = (x5 m c) :=
  (W2_of_ne m ρ c main_arg5 (by decide)).trans (by host_keeps)
theorem arg6_at2 : W2 m ρ c (Proc.devRef .tc main_arg6) = (x6 m c) :=
  (W2_of_ne m ρ c main_arg6 (by decide)).trans (by host_keeps)
theorem arg7_at2 : W2 m ρ c (Proc.devRef .tc main_arg7) = (x7 m c) :=
  (W2_of_ne m ρ c main_arg7 (by decide)).trans (by host_keeps)

/-! ## After the second stretch -/

/-- The second region's left operand: the aggregation of `h₁` beside `h₁`. -/
theorem opA_at3 : V3 m ρ c main_v46 = concatenate S20000x1024 1 [⟨S20000x512, val_main_v48 (F := Ideal) (x0 m c) (x1 m c) (x2 m c) (x3 m c) (x4 m c)⟩,
      ⟨S20000x512, val_main_v29 (F := Ideal) (x0 m c) (x1 m c) (x2 m c) (x3 m c) (x4 m c)⟩] concatenates_S20000x512_S20000x512_S20000x1024_d1 := by
  show StableHlo.after hostOps1 (W2 m ρ c) (Proc.devRef .tc main_v46) = _
  after_results_simp
  refine congrArg₂ (fun a b => concatenate S20000x1024 1 [⟨S20000x512, a⟩, ⟨S20000x512, b⟩] concatenates_S20000x512_S20000x512_S20000x1024_d1) ?_ ?_
  · after_results_simp
    rw [src_at2 m ρ c, dst_at2 m ρ c, h1_at2 m ρ c]
    rfl
  · after_results_simp
    exact h1_at2 m ρ c

theorem opW_at3 : V3 m ρ c main_v47 = concatenate S1024x512 0 [⟨S512x512, (x5 m c)⟩, ⟨S512x512, (x7 m c)⟩]
    concatenates_S512x512_S512x512_S1024x512_d0 := by
  show StableHlo.after hostOps1 (W2 m ρ c) (Proc.devRef .tc main_v47) = _
  after_results_simp
  refine congrArg₂ (fun a b => concatenate S1024x512 0 [⟨S512x512, a⟩, ⟨S512x512, b⟩] concatenates_S512x512_S512x512_S1024x512_d0) ?_ ?_
  · after_results_simp
    exact arg5_at2 m ρ c
  · after_results_simp
    exact arg7_at2 m ρ c

theorem opB_at3 : V3 m ρ c main_v48 = shapeCast S1x512 (x6 m c) shapeCasts_S512_S1x512 := by
  show StableHlo.after hostOps1 (W2 m ρ c) (Proc.devRef .tc main_v48) = _
  after_results_simp
  rw [arg6_at2 m ρ c]
  rfl

/-! ## After the second region -/

/-- The second hidden array: the reference's `h₂`. -/
theorem h2_at4 : W4 m ρ c (Proc.devRef .tc main_v49) = val_main_v55 (F := Ideal) (x0 m c) (x1 m c) (x2 m c) (x3 m c) (x4 m c) (x5 m c) (x6 m c) (x7 m c) := by
  refine (W4_arr m ρ c 3).trans ?_
  rw [Region1.value (V3 m ρ) c, opA_at3 m ρ c, opW_at3 m ρ c, opB_at3 m ρ c,
    Cert.Bridge.layer2 (val_main_v48 (F := Ideal) (x0 m c) (x1 m c) (x2 m c) (x3 m c) (x4 m c)) (val_main_v29 (F := Ideal) (x0 m c) (x1 m c) (x2 m c) (x3 m c) (x4 m c)) (x5 m c) (x7 m c) (x6 m c)]
  rfl

theorem src_at4 : W4 m ρ c (Proc.devRef .tc main_v1) = val_main_v1 (F := Ideal) (x1 m c) :=
  (W4_of_ne m ρ c main_v1 (by decide)).trans (by
    show StableHlo.after hostOps1 (W2 m ρ c) (Proc.devRef .tc main_v1) = _
    after_results_simp
    exact src_at2 m ρ c)
theorem dst_at4 : W4 m ρ c (Proc.devRef .tc main_v3) = val_main_v3 (F := Ideal) (x1 m c) :=
  (W4_of_ne m ρ c main_v3 (by decide)).trans (by
    show StableHlo.after hostOps1 (W2 m ρ c) (Proc.devRef .tc main_v3) = _
    after_results_simp
    exact dst_at2 m ρ c)
theorem arg8_at4 : W4 m ρ c (Proc.devRef .tc main_arg8) = (x8 m c) :=
  (W4_of_ne m ρ c main_arg8 (by decide)).trans (by
    show StableHlo.after hostOps1 (W2 m ρ c) (Proc.devRef .tc main_arg8) = _
    after_results_simp
    exact (W2_of_ne m ρ c main_arg8 (by decide)).trans (by host_keeps))
theorem arg9_at4 : W4 m ρ c (Proc.devRef .tc main_arg9) = (x9 m c) :=
  (W4_of_ne m ρ c main_arg9 (by decide)).trans (by
    show StableHlo.after hostOps1 (W2 m ρ c) (Proc.devRef .tc main_arg9) = _
    after_results_simp
    exact (W2_of_ne m ρ c main_arg9 (by decide)).trans (by host_keeps))
theorem arg10_at4 : W4 m ρ c (Proc.devRef .tc main_arg10) = (x10 m c) :=
  (W4_of_ne m ρ c main_arg10 (by decide)).trans (by
    show StableHlo.after hostOps1 (W2 m ρ c) (Proc.devRef .tc main_arg10) = _
    after_results_simp
    exact (W2_of_ne m ρ c main_arg10 (by decide)).trans (by host_keeps))
theorem arg11_at4 : W4 m ρ c (Proc.devRef .tc main_arg11) = (x11 m c) :=
  (W4_of_ne m ρ c main_arg11 (by decide)).trans (by
    show StableHlo.after hostOps1 (W2 m ρ c) (Proc.devRef .tc main_arg11) = _
    after_results_simp
    exact (W2_of_ne m ρ c main_arg11 (by decide)).trans (by host_keeps))
theorem arg12_at4 : W4 m ρ c (Proc.devRef .tc main_arg12) = (x12 m c) :=
  (W4_of_ne m ρ c main_arg12 (by decide)).trans (by
    show StableHlo.after hostOps1 (W2 m ρ c) (Proc.devRef .tc main_arg12) = _
    after_results_simp
    exact (W2_of_ne m ρ c main_arg12 (by decide)).trans (by host_keeps))

/-! ## After the third stretch -/

/-- The third region's left operand: the aggregation of `h₂` beside `h₂`. -/
theorem opA_at5 : V5 m ρ c main_v69 = concatenate S20000x1024 1 [⟨S20000x512, val_main_v74 (F := Ideal) (x0 m c) (x1 m c) (x2 m c) (x3 m c) (x4 m c) (x5 m c) (x6 m c) (x7 m c)⟩,
      ⟨S20000x512, val_main_v55 (F := Ideal) (x0 m c) (x1 m c) (x2 m c) (x3 m c) (x4 m c) (x5 m c) (x6 m c) (x7 m c)⟩] concatenates_S20000x512_S20000x512_S20000x1024_d1 := by
  show StableHlo.after hostOps2 (W4 m ρ c) (Proc.devRef .tc main_v69) = _
  after_results_simp
  refine congrArg₂ (fun a b => concatenate S20000x1024 1 [⟨S20000x512, a⟩, ⟨S20000x512, b⟩] concatenates_S20000x512_S20000x512_S20000x1024_d1) ?_ ?_
  · after_results_simp
    rw [src_at4 m ρ c, dst_at4 m ρ c, h2_at4 m ρ c]
    rfl
  · after_results_simp
    exact h2_at4 m ρ c

theorem opW_at5 : V5 m ρ c main_v70 = concatenate S1024x1024 0 [⟨S512x1024, (x8 m c)⟩, ⟨S512x1024, (x10 m c)⟩]
    concatenates_S512x1024_S512x1024_S1024x1024_d0 := by
  show StableHlo.after hostOps2 (W4 m ρ c) (Proc.devRef .tc main_v70) = _
  after_results_simp
  refine congrArg₂ (fun a b => concatenate S1024x1024 0 [⟨S512x1024, a⟩, ⟨S512x1024, b⟩] concatenates_S512x1024_S512x1024_S1024x1024_d0) ?_ ?_
  · after_results_simp
    exact arg8_at4 m ρ c
  · after_results_simp
    exact arg10_at4 m ρ c

theorem opB_at5 : V5 m ρ c main_v71 = shapeCast S1x1024 (x9 m c) shapeCasts_S1024_S1x1024 := by
  show StableHlo.after hostOps2 (W4 m ρ c) (Proc.devRef .tc main_v71) = _
  after_results_simp
  rw [arg9_at4 m ρ c]
  rfl

/-! ## After the third region -/

/-- The third hidden array: the reference's `h₃`. -/
theorem h3_at6 : W6 m ρ c (Proc.devRef .tc main_v72) = val_main_v81 (F := Ideal) (x0 m c) (x1 m c) (x2 m c) (x3 m c) (x4 m c) (x5 m c) (x6 m c) (x7 m c) (x8 m c) (x9 m c) (x10 m c) := by
  refine (W6_arr m ρ c 3).trans ?_
  rw [Region2.value (V5 m ρ) c, opA_at5 m ρ c, opW_at5 m ρ c, opB_at5 m ρ c,
    Cert.Bridge.layer3 (val_main_v74 (F := Ideal) (x0 m c) (x1 m c) (x2 m c) (x3 m c) (x4 m c) (x5 m c) (x6 m c) (x7 m c)) (val_main_v55 (F := Ideal) (x0 m c) (x1 m c) (x2 m c) (x3 m c) (x4 m c) (x5 m c) (x6 m c) (x7 m c)) (x8 m c) (x10 m c) (x9 m c)]
  rfl

theorem arg11_at6 : W6 m ρ c (Proc.devRef .tc main_arg11) = (x11 m c) :=
  (W6_of_ne m ρ c main_arg11 (by decide)).trans (by
    show StableHlo.after hostOps2 (W4 m ρ c) (Proc.devRef .tc main_arg11) = _
    after_results_simp
    exact arg11_at4 m ρ c)
theorem arg12_at6 : W6 m ρ c (Proc.devRef .tc main_arg12) = (x12 m c) :=
  (W6_of_ne m ρ c main_arg12 (by decide)).trans (by
    show StableHlo.after hostOps2 (W4 m ρ c) (Proc.devRef .tc main_arg12) = _
    after_results_simp
    exact arg12_at4 m ρ c)

/-! ## After the last stretch -/

theorem opA_at7 : V7 m ρ c main_v72 = val_main_v81 (F := Ideal) (x0 m c) (x1 m c) (x2 m c) (x3 m c) (x4 m c) (x5 m c) (x6 m c) (x7 m c) (x8 m c) (x9 m c) (x10 m c) := by
  show StableHlo.after hostOps3 (W6 m ρ c) (Proc.devRef .tc main_v72) = _
  after_results_simp
  exact h3_at6 m ρ c

theorem opW_at7 : V7 m ρ c main_arg11 = (x11 m c) := by
  show StableHlo.after hostOps3 (W6 m ρ c) (Proc.devRef .tc main_arg11) = _
  after_results_simp
  exact arg11_at6 m ρ c

theorem opB_at7 : V7 m ρ c main_v73 = shapeCast S1x512 (x12 m c) shapeCasts_S512_S1x512 := by
  show StableHlo.after hostOps3 (W6 m ρ c) (Proc.devRef .tc main_v73) = _
  after_results_simp
  rw [arg12_at6 m ρ c]
  rfl

/-! ## After the last region -/

/-- THE RESULT: the kernel's result array is the reference's last stage, read at the kernel's own arguments. -/
theorem result_at8 : W8 m ρ c (Proc.devRef .tc main_v74) = val_main_v85 (F := Ideal) (x0 m c) (x1 m c) (x2 m c) (x3 m c) (x4 m c) (x5 m c) (x6 m c) (x7 m c) (x8 m c) (x9 m c) (x10 m c) (x11 m c) (x12 m c) := by
  refine (W8_arr m ρ c 3).trans ?_
  rw [Region3.value (V7 m ρ) c, opA_at7 m ρ c, opW_at7 m ρ c, opB_at7 m ρ c,
    Cert.Bridge.layerFc (val_main_v81 (F := Ideal) (x0 m c) (x1 m c) (x2 m c) (x3 m c) (x4 m c) (x5 m c) (x6 m c) (x7 m c) (x8 m c) (x9 m c) (x10 m c)) (x11 m c) (x12 m c)]
  rfl

end Cert.KernelIdeal.Thread

end
-- ==== Proof.lean ====
/-
  A three-layer GraphSAGE network with mean aggregation and a final linear layer: the kernel's program against the
  plain jnp reference, at the ideal values (floats are extended reals, every operation exact, a change of float
  format the identity).

  Both programs aggregate with the same host operations: gather the source rows over the edge list, scatter-add them
  and a vector of ones into the destination nodes, divide by `max(count, 1)`.  They differ in the dense part of each
  layer.  The reference computes `max(mean · Wl + b + h · Wr, 0)` with two matrix products.  The kernel's program
  concatenates `[mean | h]` and `[Wl ; Wr]` on the host and runs ONE product in a kernel region that walks the 20000
  rows in 20 blocks of 1000: `max([mean | h] · [Wl ; Wr] + b, 0)`, narrowing the operands to bf16 first, which at the
  ideal values is the identity.  Entry by entry the contraction over `d + d` positions is the sum of the two
  contractions over `d`, and `(s₁ + s₂) + b = (s₁ + b) + s₂` in the extended reals (a commutative additive monoid): the
  two layers are equal without any finiteness of the inputs, so the precondition is never opened.  The last layer,
  `h · W + b`, is one product in both programs.

  The frames of the two kernel programs are the generated frame certificates; the reference's frame is its generated
  run with the result dropped.  The idealization rewrote no operation, so `preserves` is `True`.  For `algebraic`
  the kernel's run is read with its result array named at the last boundary's contents (Proof/KernelRun.lean), those
  contents are walked back through the four regions and four host stretches to the reference's own stages read at the
  kernel's arguments (Proof/KernelValue.lean over Proof/Region0 … Region3.lean and Proof/Bridge.lean), and the
  reference's run ends at the same stages of its own arguments, which agree.
-/
import proofs.«153768_j44839458570700_1_alg».proof.Defs
import proofs.«153768_j44839458570700_1_alg».proof.Proof.Gen.Kernel
import proofs.«153768_j44839458570700_1_alg».proof.Proof.Gen.Kernel.Skeleton
import proofs.«153768_j44839458570700_1_alg».proof.Proof.Gen.Kernel.Launch
import proofs.«153768_j44839458570700_1_alg».proof.Proof.Gen.Kernel.Points
import proofs.«153768_j44839458570700_1_alg».proof.Proof.Gen.Kernel.Frame
import proofs.«153768_j44839458570700_1_alg».proof.Proof.Gen.KernelIdeal
import proofs.«153768_j44839458570700_1_alg».proof.Proof.Gen.KernelIdeal.Skeleton
import proofs.«153768_j44839458570700_1_alg».proof.Proof.Gen.KernelIdeal.Launch
import proofs.«153768_j44839458570700_1_alg».proof.Proof.Gen.KernelIdeal.Points
import proofs.«153768_j44839458570700_1_alg».proof.Proof.Gen.KernelIdeal.Frame
import proofs.«153768_j44839458570700_1_alg».proof.Proof.Gen.ReferenceIdeal
import proofs.«153768_j44839458570700_1_alg».proof.Proof.Gen.Pre_finite_inputs
import proofs.«153768_j44839458570700_1_alg».proof.Proof.Gen.ReferenceIdeal.Run
import proofs.«153768_j44839458570700_1_alg».proof.Proof.Gen.ReferenceIdeal.Read
import proofs.«153768_j44839458570700_1_alg».proof.Proof.KernelRun
import proofs.«153768_j44839458570700_1_alg».proof.Proof.KernelValue
import Idealize.ShloMosaic.Adequacy
import Idealize.ShloMosaic.Init

noncomputable section

namespace Cert.Proof

open Idealize.ShloMosaic Idealize.SL.Sem

/-- The word-level kernel program's frame: the generated frame certificate. -/
theorem frame_kernel : Cert.frame_Kernel := fun m ρ _ => Cert.Kernel.Gen.frame m ρ

/-- The idealized kernel program's frame: the generated frame certificate. -/
theorem frame_kernelIdeal : Cert.frame_KernelIdeal := fun m ρ _ => Cert.KernelIdeal.Gen.frame m ρ

/-- The reference's frame: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the reference's last stage of the (agreeing) argument arrays. -/
theorem algebraic : Cert.algebraic_KernelIdeal_ReferenceIdeal := by
  intro m ρ m' ρ' _ hagree
  refine ⟨fun c => Cert.ReferenceIdeal.Read.val_main_v85 (F := Ideal) (Cert.KernelIdeal.Thread.x0 m c) (Cert.KernelIdeal.Thread.x1 m c) (Cert.KernelIdeal.Thread.x2 m c) (Cert.KernelIdeal.Thread.x3 m c) (Cert.KernelIdeal.Thread.x4 m c) (Cert.KernelIdeal.Thread.x5 m c) (Cert.KernelIdeal.Thread.x6 m c) (Cert.KernelIdeal.Thread.x7 m c) (Cert.KernelIdeal.Thread.x8 m c) (Cert.KernelIdeal.Thread.x9 m c) (Cert.KernelIdeal.Thread.x10 m c) (Cert.KernelIdeal.Thread.x11 m c) (Cert.KernelIdeal.Thread.x12 m c), ?_, ?_⟩
  · exact (θ_run Cert.KernelIdeal.defs _ _).mono
      (fun r h c => ⟨(h c).1.trans (Cert.KernelIdeal.Thread.result_at8 m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v85_eq]
    obtain ⟨e0, e1, e2, e3, e4, e5, e6, e7, e8, e9, e10, e11, e12⟩ := hagree c
    rw [e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
